-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S139x128 : Shape := ⟨2, ![139, 128]⟩
abbrev S_ : Shape := ⟨0, ![]⟩

class Facts : Prop where
  bcast_S_S139x128 : S_.BroadcastsInDim S139x128 (![] : Fin 0 → Fin S139x128.rank)
  reducesTo_S139x128_S_d0_1 : S139x128.ReducesTo [0, 1] S_
  h_S_ : 0 < S_.numel

variable [Facts]

def fn {F : FTy → Type} [FloatOps F] (main_arg0 : IVec S1x1024 32) (main_arg1 : IVec S1x1024 32) (main_arg2 : IVec S1x1024 32) (main_arg3 : IVec S1x1024 32) (main_arg4 : IVec S1x1024 32) (main_arg5 : FVec F S139x128 .f32) : IVec S_ 1 :=
  let main_v0 : FVec F S139x128 .f32 := Host.absf main_arg5
  let main_cst : FVec F S_ .f32 := constant S_ .f32 0x7F800000#32
  let main_v1 : FVec F S139x128 .f32 := broadcastInDim S139x128 ![] bcast_S_S139x128 main_cst
  let main_v2 : IVec S139x128 1 := cmpf .olt main_v0 main_v1
  let main_c : IVec S_ 1 := constantI S_ 1 1#1
  let main_v3 : IVec S_ 1 := (fun x v => Host.reduce IntOp.andi x v reducesTo_S139x128_S_d0_1 h_S_) main_v2 main_c
  main_v3
-- ==== Kernel.lean ====
abbrev S1x1024 : Shape := ⟨2, ![1, 1024]⟩
abbrev S139x128 : Shape := ⟨2, ![139, 128]⟩
abbrev S1x1024x1024x128 : Shape := ⟨4, ![1, 1024, 1024, 128]⟩
abbrev S1x64x128x128 : Shape := ⟨4, ![1, 64, 128, 128]⟩
abbrev S1x64 : Shape := ⟨2, ![1, 64]⟩
abbrev S64 : Shape := ⟨1, ![64]⟩
abbrev S64x1 : Shape := ⟨2, ![64, 1]⟩
abbrev S1x128 : Shape := ⟨2, ![1, 128]⟩
abbrev S128 : Shape := ⟨1, ![128]⟩
abbrev S64x128 : Shape := ⟨2, ![64, 128]⟩
abbrev S66x128 : Shape := ⟨2, ![66, 128]⟩
abbrev S6x128 : Shape := ⟨2, ![6, 128]⟩
abbrev S64x128x66 : Shape := ⟨3, ![64, 128, 66]⟩
abbrev S64x128x1 : Shape := ⟨3, ![64, 128, 1]⟩
abbrev S8192x66 : Shape := ⟨2, ![8192, 66]⟩
abbrev S8192x128 : Shape := ⟨2, ![8192, 128]⟩
abbrev S64x128x128 : Shape := ⟨3, ![64, 128, 128]⟩
abbrev S1x1x128 : Shape := ⟨3, ![1, 1, 128]⟩
abbrev S64x128x6 : Shape := ⟨3, ![64, 128, 6]⟩
abbrev S8192x6 : Shape := ⟨2, ![8192, 6]⟩

abbrev nBuf : Space → Nat
  | .hbm => 7
  | .vmem => 8
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S139x128, .f32⟩
  | .hbm, ⟨6, _⟩ => ⟨S1x1024x1024x128, .f32⟩
  | .local _ .vmem, ⟨0, _⟩ => ⟨S1x1024, .i32⟩
  | .local _ .vmem, ⟨1, _⟩ => ⟨S1x1024, .i32⟩
  | .local _ .vmem, ⟨2, _⟩ => ⟨S1x1024, .i32⟩
  | .local _ .vmem, ⟨3, _⟩ => ⟨S1x1024, .i32⟩
  | .local _ .vmem, ⟨4, _⟩ => ⟨S1x1024, .i32⟩
  | .local _ .vmem, ⟨5, _⟩ => ⟨S139x128, .f32⟩
  | .local _ .vmem, ⟨6, _⟩ => ⟨S1x64x128x128, .f32⟩
  | .local _ .vmem, ⟨7, _⟩ => ⟨S1x64x128x128, .f32⟩
  | _, _ => ⟨S1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg0 : BitVec 32 := BitVec.ofNat 32 (i 0).val
  let c64_i32 : BitVec 32 := 64#32
  let v0 : BitVec 32 := Scalar.muli arg0 c64_i32
  v0
def k0_mult2 (i : grid0.Coords) : BitVec 32 :=
  let arg1 : BitVec 32 := BitVec.ofNat 32 (i 1).val
  let c128_i32 : BitVec 32 := 128#32
  let v2 : BitVec 32 := Scalar.muli arg1 c128_i32
  v2
def k0_off1 (i : grid0.Coords) : Fin 2 → Nat :=
  let c0 : Index := 0#32
  let arg0 : BitVec 32 := BitVec.ofNat 32 (i 0).val
  let c64_i32 : BitVec 32 := 64#32
  let v0 : BitVec 32 := Scalar.muli arg0 c64_i32
  let v1 : BitVec 32 := v0
  let v4 : Index := Scalar.indexCast v1
  ![0, v4.toNat]
def k0_off2 (i : grid0.Coords) : Fin 2 → Nat :=
  let c0_0 : Index := 0#32
  let arg1 : BitVec 32 := BitVec.ofNat 32 (i 1).val
  let c128_i32 : BitVec 32 := 128#32
  let v2 : BitVec 32 := Scalar.muli arg1 c128_i32
  let v3 : BitVec 32 := v2
  let v8 : Index := Scalar.indexCast v3
  ![0, v8.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .vmem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S139x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  h_S1x64 : 0 < S1x64.numel
  shapeCasts_S1x64_S64 : S1x64.ShapeCasts S64
  shapeCasts_S64_S64x1 : S64.ShapeCasts S64x1
  h_S1x128 : 0 < S1x128.numel
  shapeCasts_S1x128_S128 : S1x128.ShapeCasts S128
  shapeCasts_S128_S1x128 : S128.ShapeCasts S1x128
  broadcasts_S64x1_S64x128 : S64x1.Broadcasts S64x128
  broadcasts_S1x128_S64x128 : S1x128.Broadcasts S64x128
  inb_S139x128_S139x128_0_0 : ∀ a, (![0, 0] : Fin 2 → Nat) a + S139x128.size a ≤ S139x128.size a
  h_S139x128 : 0 < S139x128.numel
  slices_S139x128_o0_0_S66x128 : S139x128.Slices ![0, 0] S66x128
  slices_S139x128_o66_0_S66x128 : S139x128.Slices ![66, 0] S66x128
  slices_S139x128_o132_0_S1x128 : S139x128.Slices ![132, 0] S1x128
  slices_S139x128_o133_0_S6x128 : S139x128.Slices ![133, 0] S6x128
  iota_S64x128x66_d2_w32 : S64x128x66.Iotas .tc 32 [2]
  shapeCasts_S64x128_S64x128x1 : S64x128.ShapeCasts S64x128x1
  broadcasts_S64x128x1_S64x128x66 : S64x128x1.Broadcasts S64x128x66
  natLt_1_32 : 1 < 32
  shapeCasts_S64x128x66_S8192x66 : S64x128x66.ShapeCasts S8192x66
  shapeCasts_S8192x128_S64x128x128 : S8192x128.ShapeCasts S64x128x128
  shapeCasts_S128_S1x1x128 : S128.ShapeCasts S1x1x128
  broadcasts_S64x128x1_S64x128x128 : S64x128x1.Broadcasts S64x128x128
  broadcasts_S1x1x128_S64x128x128 : S1x1x128.Broadcasts S64x128x128
  iota_S64x128x6_d2_w32 : S64x128x6.Iotas .tc 32 [2]
  broadcasts_S64x128x1_S64x128x6 : S64x128x1.Broadcasts S64x128x6
  shapeCasts_S64x128x6_S8192x6 : S64x128x6.ShapeCasts S8192x6
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S1x64x128x128 : S64x128x128.ShapeCasts S1x64x128x128
  dot_S8192x66_S66x128_S8192x128_1_0_0_1_n_n_wf : DotDims.WF S8192x66 S66x128 S8192x128 [1] [0] [0] [1] [] []
  dot_S8192x6_S6x128_S8192x128_1_0_0_1_n_n_wf : DotDims.WF S8192x6 S6x128 S8192x128 [1] [0] [0] [1] [] []
  hrank0 : 0 < grid0.rank
  k0_mult1_dvd : ∀ i : grid0.Coords, 64 ∣ (k0_mult1 i).toNat
  k0_mult2_dvd : ∀ i : grid0.Coords, 128 ∣ (k0_mult2 i).toNat
  k0_off1_inb : ∀ i : grid0.Coords, ∀ a, (k0_off1 i) a + S1x64.size a ≤ S1x1024.size a
  k0_off2_inb : ∀ i : grid0.Coords, ∀ a, (k0_off2 i) a + S1x128.size a ≤ S1x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .i32 = 32 ∨ (Rect.block (s := S1x1024) S1x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .i32 = 32 ∨ (Rect.block (s := S1x1024) S1x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .i32 = 32 ∨ (Rect.block (s := S1x1024) S1x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .i32 = 32 ∨ (Rect.block (s := S1x1024) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .i32 = 32 ∨ (Rect.block (s := S1x1024) S1x1024.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S139x128.size a ≤ S139x128.size a
  hwx0_5 : ∀ i : grid0.Coords, EltTy.bits .f32 = 32 ∨ (Rect.block (s := S139x128) S139x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x128x128.size a ≤ S1x1024x1024x128.size a
  hwx0_6 : ∀ i : grid0.Coords, EltTy.bits .f32 = 32 ∨ (Rect.block (s := S1x1024x1024x128) S1x64x128x128.size (cc0_transform_6 i) (hinb0_6 i)).WholeWords (EltTy.packing .f32)

variable [Facts₀]

def dot_S8192x66_S66x128_S8192x128_1_0_0_1_n_n : DotDims S8192x66 S66x128 S8192x128 where
  lhsContracting := [1]
  rhsContracting := [0]
  lhsNonContracting := [0]
  rhsNonContracting := [1]
  lhsBatch := []
  rhsBatch := []
  wf := dot_S8192x66_S66x128_S8192x128_1_0_0_1_n_n_wf
def dot_S8192x6_S6x128_S8192x128_1_0_0_1_n_n : DotDims S8192x6 S6x128 S8192x128 where
  lhsContracting := [1]
  rhsContracting := [0]
  lhsNonContracting := [0]
  rhsNonContracting := [1]
  lhsBatch := []
  rhsBatch := []
  wf := dot_S8192x6_S6x128_S8192x128_1_0_0_1_n_n_wf

abbrev win0_0 : Pipeline.Window sig grid0 :=
  Pipeline.Window.ofSpec (Memref.whole main_arg0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S139x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x64x128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x1024 : Shape := ⟨2, ![1, 1024]⟩
abbrev S139x128 : Shape := ⟨2, ![139, 128]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S_ : Shape := ⟨0, ![]⟩
abbrev S66x128 : Shape := ⟨2, ![66, 128]⟩
abbrev S1x128 : Shape := ⟨2, ![1, 128]⟩
abbrev S128 : Shape := ⟨1, ![128]⟩
abbrev S6x128 : Shape := ⟨2, ![6, 128]⟩
abbrev S1x1024x1024x1 : Shape := ⟨4, ![1, 1024, 1024, 1]⟩
abbrev S1x1024x1024x128 : Shape := ⟨4, ![1, 1024, 1024, 128]⟩
abbrev S1x1x1x128 : Shape := ⟨4, ![1, 1, 1, 128]⟩

abbrev nBuf : Space → Nat
  | .hbm => 123
  | .vmem => 0
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S139x128, .f32⟩
  | .hbm, ⟨6, _⟩ => ⟨S1x1024x1, .i32⟩
  | .hbm, ⟨7, _⟩ => ⟨S1x1x1024, .i32⟩
  | .hbm, ⟨8, _⟩ => ⟨S1x1024x1024, .i32⟩
  | .hbm, ⟨9, _⟩ => ⟨S1x1024x1024, .i32⟩
  | .hbm, ⟨10, _⟩ => ⟨S1x1024x1024, .i1⟩
  | .hbm, ⟨11, _⟩ => ⟨S1x1024x1, .i32⟩
  | .hbm, ⟨12, _⟩ => ⟨S1x1x1024, .i32⟩
  | .hbm, ⟨13, _⟩ => ⟨S1x1024x1024, .i32⟩
  | .hbm, ⟨14, _⟩ => ⟨S1x1024x1024, .i32⟩
  | .hbm, ⟨15, _⟩ => ⟨S1x1024x1024, .i1⟩
  | .hbm, ⟨16, _⟩ => ⟨S1x1024x1, .i32⟩
  | .hbm, ⟨17, _⟩ => ⟨S1x1x1024, .i32⟩
  | .hbm, ⟨18, _⟩ => ⟨S1x1024x1024, .i32⟩
  | .hbm, ⟨19, _⟩ => ⟨S1x1024x1024, .i32⟩
  | .hbm, ⟨20, _⟩ => ⟨S1x1024x1024, .i1⟩
  | .hbm, ⟨21, _⟩ => ⟨S1x1024x1, .i32⟩
  | .hbm, ⟨22, _⟩ => ⟨S1x1x1024, .i32⟩
  | .hbm, ⟨23, _⟩ => ⟨S1x1024x1024, .i32⟩
  | .hbm, ⟨24, _⟩ => ⟨S1x1024x1024, .i32⟩
  | .hbm, ⟨25, _⟩ => ⟨S1x1024x1024, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1x1024x1024, .i32⟩
  | .hbm, ⟨30, _⟩ => ⟨S1x1024x1024, .i32⟩
  | .hbm, ⟨31, _⟩ => ⟨S_, .i32⟩
  | .hbm, ⟨32, _⟩ => ⟨S1x1024x1024, .i32⟩
  | .hbm, ⟨33, _⟩ => ⟨S1x1024x1024, .i32⟩
  | .hbm, ⟨34, _⟩ => ⟨S_, .i32⟩
  | .hbm, ⟨35, _⟩ => ⟨S1x1024x1024, .i32⟩
  | .hbm, ⟨36, _⟩ => ⟨S1x1024x1024, .i32⟩
  | .hbm, ⟨37, _⟩ => ⟨S_, .i32⟩
  | .hbm, ⟨38, _⟩ => ⟨S_, .i32⟩
  | .hbm, ⟨39, _⟩ => ⟨S1x1024x1024, .i32⟩
  | .hbm, ⟨40, _⟩ => ⟨S1x1024x1024, .i32⟩
  | .hbm, ⟨41, _⟩ => ⟨S1x1024x1024, .i1⟩
  | .hbm, ⟨42, _⟩ => ⟨S1x1024x1, .i32⟩
  | .hbm, ⟨43, _⟩ => ⟨S1x1x1024, .i32⟩
  | .hbm, ⟨44, _⟩ => ⟨S1x1024x1024, .i32⟩
  | .hbm, ⟨45, _⟩ => ⟨S1x1024x1024, .i32⟩
  | .hbm, ⟨46, _⟩ => ⟨S1x1024x1024, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x1024x1024, .i32⟩
  | .hbm, ⟨51, _⟩ => ⟨S1x1024x1024, .i32⟩
  | .hbm, ⟨52, _⟩ => ⟨S_, .i32⟩
  | .hbm, ⟨53, _⟩ => ⟨S1x1024x1024, .i32⟩
  | .hbm, ⟨54, _⟩ => ⟨S1x1024x1024, .i32⟩
  | .hbm, ⟨55, _⟩ => ⟨S_, .i32⟩
  | .hbm, ⟨56, _⟩ => ⟨S1x1024x1024, .i32⟩
  | .hbm, ⟨57, _⟩ => ⟨S1x1024x1024, .i32⟩
  | .hbm, ⟨58, _⟩ => ⟨S_, .i32⟩
  | .hbm, ⟨59, _⟩ => ⟨S_, .i32⟩
  | .hbm, ⟨60, _⟩ => ⟨S1x1024x1024, .i32⟩
  | .hbm, ⟨61, _⟩ => ⟨S1x1024x1024, .i32⟩
  | .hbm, ⟨62, _⟩ => ⟨S1x1024x1, .i32⟩
  | .hbm, ⟨63, _⟩ => ⟨S1x1x1024, .i32⟩
  | .hbm, ⟨64, _⟩ => ⟨S1x1024x1024, .i32⟩
  | .hbm, ⟨65, _⟩ => ⟨S1x1024x1024, .i32⟩
  | .hbm, ⟨66, _⟩ => ⟨S1x1024x1024, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S1x1024x1024, .i32⟩
  | .hbm, ⟨71, _⟩ => ⟨S1x1024x1024, .i32⟩
  | .hbm, ⟨72, _⟩ => ⟨S_, .i32⟩
  | .hbm, ⟨73, _⟩ => ⟨S1x1024x1024, .i32⟩
  | .hbm, ⟨74, _⟩ => ⟨S1x1024x1024, .i32⟩
  | .hbm, ⟨75, _⟩ => ⟨S_, .i32⟩
  | .hbm, ⟨76, _⟩ => ⟨S1x1024x1024, .i32⟩
  | .hbm, ⟨77, _⟩ => ⟨S1x1024x1024, .i32⟩
  | .hbm, ⟨78, _⟩ => ⟨S_, .i32⟩
  | .hbm, ⟨79, _⟩ => ⟨S_, .i32⟩
  | .hbm, ⟨80, _⟩ => ⟨S1x1024x1024, .i32⟩
  | .hbm, ⟨81, _⟩ => ⟨S1x1024x1024, .i32⟩
  | .hbm, ⟨82, _⟩ => ⟨S66x128, .f32⟩
  | .hbm, ⟨83, _⟩ => ⟨S66x128, .f32⟩
  | .hbm, ⟨84, _⟩ => ⟨S1x128, .f32⟩
  | .hbm, ⟨85, _⟩ => ⟨S128, .f32⟩
  | .hbm, ⟨86, _⟩ => ⟨S6x128, .f32⟩
  | .hbm, ⟨87, _⟩ => ⟨S_, .i32⟩
  | .hbm, ⟨88, _⟩ => ⟨S1x1024x1024, .i32⟩
  | .hbm, ⟨89, _⟩ => ⟨S1x1024x1024, .i1⟩
  | .hbm, ⟨90, _⟩ => ⟨S_, .i32⟩
  | .hbm, ⟨91, _⟩ => ⟨S1x1024x1024, .i32⟩
  | .hbm, ⟨92, _⟩ => ⟨S1x1024x1024, .i32⟩
  | .hbm, ⟨93, _⟩ => ⟨S1x1024x1024, .i32⟩
  | .hbm, ⟨94, _⟩ => ⟨S1x1024x1024x1, .i32⟩
  | .hbm, ⟨95, _⟩ => ⟨S1x1024x1024x128, .f32⟩
  | .hbm, ⟨96, _⟩ => ⟨S_, .i32⟩
  | .hbm, ⟨97, _⟩ => ⟨S1x1024x1024, .i32⟩
  | .hbm, ⟨98, _⟩ => ⟨S1x1024x1024, .i1⟩
  | .hbm, ⟨99, _⟩ => ⟨S_, .i32⟩
  | .hbm, ⟨100, _⟩ => ⟨S1x1024x1024, .i32⟩
  | .hbm, ⟨101, _⟩ => ⟨S1x1024x1024, .i32⟩
  | .hbm, ⟨102, _⟩ => ⟨S1x1024x1024, .i32⟩
  | .hbm, ⟨103, _⟩ => ⟨S1x1024x1024x1, .i32⟩
  | .hbm, ⟨104, _⟩ => ⟨S1x1024x1024x128, .f32⟩
  | .hbm, ⟨105, _⟩ => ⟨S1x1024x1024x128, .f32⟩
  | .hbm, ⟨106, _⟩ => ⟨S1x1024x1024x1, .i1⟩
  | .hbm, ⟨107, _⟩ => ⟨S1x1024x1024x1, .f32⟩
  | .hbm, ⟨108, _⟩ => ⟨S1x1x1x128, .f32⟩
  | .hbm, ⟨109, _⟩ => ⟨S1x1024x1024x128, .f32⟩
  | .hbm, ⟨110, _⟩ => ⟨S1x1024x1024x128, .f32⟩
  | .hbm, ⟨111, _⟩ => ⟨S1x1024x1024x128, .f32⟩
  | .hbm, ⟨112, _⟩ => ⟨S1x1024x1024x128, .f32⟩
  | .hbm, ⟨113, _⟩ => ⟨S_, .i32⟩
  | .hbm, ⟨114, _⟩ => ⟨S1x1024x1024, .i32⟩
  | .hbm, ⟨115, _⟩ => ⟨S1x1024x1024, .i1⟩
  | .hbm, ⟨116, _⟩ => ⟨S_, .i32⟩
  | .hbm, ⟨117, _⟩ => ⟨S1x1024x1024, .i32⟩
  | .hbm, ⟨118, _⟩ => ⟨S1x1024x1024, .i32⟩
  | .hbm, ⟨119, _⟩ => ⟨S1x1024x1024, .i32⟩
  | .hbm, ⟨120, _⟩ => ⟨S1x1024x1024x1, .i32⟩
  | .hbm, ⟨121, _⟩ => ⟨S1x1024x1024x128, .f32⟩
  | .hbm, ⟨122, _⟩ => ⟨S1x1024x1024x128, .f32⟩
  | _, _ => ⟨S1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_c_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_3 : Ref sig .tc := ⟨.hbm, 47, rfl⟩
abbrev main_c_4 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_call3_v0 : Ref sig .tc := ⟨.hbm, 59, rfl⟩
abbrev main_call3_v1 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_7 : Ref sig .tc := ⟨.hbm, 67, rfl⟩
abbrev main_c_8 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_v39 : Ref sig .tc := ⟨.hbm, 74, rfl⟩
abbrev main_c_9 : Ref sig .tc := ⟨.hbm, 75, rfl⟩
abbrev main_v40 : Ref sig .tc := ⟨.hbm, 76, rfl⟩
abbrev main_v41 : Ref sig .tc := ⟨.hbm, 77, rfl⟩
abbrev main_c_10 : Ref sig .tc := ⟨.hbm, 78, rfl⟩
abbrev main_call5_v0 : Ref sig .tc := ⟨.hbm, 79, rfl⟩
abbrev main_call5_v1 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c_11 : Ref sig .tc := ⟨.hbm, 87, rfl⟩
abbrev main_v48 : Ref sig .tc := ⟨.hbm, 88, rfl⟩
abbrev main_v49 : Ref sig .tc := ⟨.hbm, 89, rfl⟩
abbrev main_c_12 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_c_13 : Ref sig .tc := ⟨.hbm, 96, rfl⟩
abbrev main_v55 : Ref sig .tc := ⟨.hbm, 97, rfl⟩
abbrev main_v56 : Ref sig .tc := ⟨.hbm, 98, rfl⟩
abbrev main_c_14 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_15 : Ref sig .tc := ⟨.hbm, 113, rfl⟩
abbrev main_v70 : Ref sig .tc := ⟨.hbm, 114, rfl⟩
abbrev main_v71 : Ref sig .tc := ⟨.hbm, 115, rfl⟩
abbrev main_c_16 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩

abbrev nD : Nat := 1
abbrev τ : Topo := Topo.v7x

variable {F : FTy → Type} [FloatOps F]

class Facts₀ : Prop where
  bcast_S1x1024_S1x1024x1_0_1 : S1x1024.BroadcastsInDim S1x1024x1 (![0, 1] : Fin 2 → Fin S1x1024x1.rank)
  bcast_S1x1024_S1x1x1024_0_2 : S1x1024.BroadcastsInDim S1x1x1024 (![0, 2] : Fin 2 → Fin S1x1x1024.rank)
  bcast_S1x1024x1_S1x1024x1024_0_1_2 : S1x1024x1.BroadcastsInDim S1x1024x1024 (![0, 1, 2] : Fin 3 → Fin S1x1024x1024.rank)
  bcast_S1x1x1024_S1x1024x1024_0_1_2 : S1x1x1024.BroadcastsInDim S1x1024x1024 (![0, 1, 2] : Fin 3 → Fin S1x1024x1024.rank)
  bcast_S_S1x1024x1024 : S_.BroadcastsInDim S1x1024x1024 (![] : Fin 0 → Fin S1x1024x1024.rank)
  slices_S139x128_S66x128_0_0 : S139x128.Slices ![0, 0] S66x128
  slices_S139x128_S66x128_66_0 : S139x128.Slices ![66, 0] S66x128
  slices_S139x128_S1x128_132_0 : S139x128.Slices ![132, 0] S1x128
  shapeCasts_S1x128_S128 : S1x128.ShapeCasts S128
  slices_S139x128_S6x128_133_0 : S139x128.Slices ![133, 0] S6x128
  bcast_S1x1024x1024_S1x1024x1024x1_0_1_2 : S1x1024x1024.BroadcastsInDim S1x1024x1024x1 (![0, 1, 2] : Fin 3 → Fin S1x1024x1024x1.rank)
  bcast_S128_S1x1x1x128_3 : S128.BroadcastsInDim S1x1x1x128 (![3] : Fin 1 → Fin S1x1x1x128.rank)
  bcast_S1x1024x1024x1_S1x1024x1024x128_0_1_2_3 : S1x1024x1024x1.BroadcastsInDim S1x1024x1024x128 (![0, 1, 2, 3] : Fin 4 → Fin S1x1024x1024x128.rank)
  bcast_S1x1x1x128_S1x1024x1024x128_0_1_2_3 : S1x1x1x128.BroadcastsInDim S1x1024x1024x128 (![0, 1, 2, 3] : Fin 4 → Fin S1x1024x1024x128.rank)
  gather_S66x128_S1x1024x1024x1_S1x1024x1024x128_3_0_n_n_0_3_1128_wf : GatherDims.WF S66x128 S1x1024x1024x1 S1x1024x1024x128 [3] [0] [] [0] [] 3 ![1, 128]
  gather_S6x128_S1x1024x1024x1_S1x1024x1024x128_3_0_n_n_0_3_1128_wf : GatherDims.WF S6x128 S1x1024x1024x1 S1x1024x1024x128 [3] [0] [] [0] [] 3 ![1, 128]

variable [Facts₀]

def gather_S66x128_S1x1024x1024x1_S1x1024x1024x128_3_0_n_n_0_3_1128 : GatherDims S66x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S66x128_S1x1024x1024x1_S1x1024x1024x128_3_0_n_n_0_3_1128_wf
def gather_S6x128_S1x1024x1024x1_S1x1024x1024x128_3_0_n_n_0_3_1128 : GatherDims S6x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S6x128_S1x1024x1024x1_S1x1024x1024x128_3_0_n_n_0_3_1128_wf

class Facts : Prop extends Facts₀ where

variable [Facts]
-- ==== Proof.LibOneHotRowGather.lean ====
/-
  GENERAL LEMMAS for a kernel that looks table rows up by a one-hot product against a reference that gathers them. Nothing
  here mentions a program; extents are arbitrary unless a shape is written out.

  * A BIN (bin, clip_bounds, bin_lt): a difference of two 32-bit words clipped to [lo, hi] (maximum with lo, then minimum
    with hi), shifted, or an extra bin when a condition bit is clear. A clipped word lies in [lo, hi] read signed,
    whatever was clipped (a wrapped difference included), so with lo + shift ≥ 0 and hi + shift < K every bin is a word
    below K.
  * Small non-negative words (toInt_of_small, wrap_of_small, clamp_of_small): they read the same signed and unsigned; the
    wrap of a negative row index (the word plus the row count when negative) and a gather's clamp into [0, N − 1] leave
    them alone.
  * THE ONE-HOT LAW (onehot_sum; bit_toInt, bit_mul): over the extended reals the sum over k < K of [d = k] · f k is
    f d, for a word d below K and ANY extended reals f k, infinite ones included: 0 annihilates and 1 is neutral
    everywhere, so nothing is asked of f.
  * WHOLE-ROW GATHER (rowGather4, rowGather4_apply, rowGather4_apply_of): row lookup x[idx] of an [N, D] table at a
    [1, R, C, 1] array of start words reads, at (0, r, c, q), the table at the start word read signed and clamped into
    [0, N − 1], feature q; stated for the explicit dimension numbers and for any record with those fields.
  * The operand indices of a plain M×K by K×N product (plain_lhsIdx, plain_rhsIdx): at result (p, q) and contraction
    position k the left operand is read at (p, k) and the right at (k, q).
-/
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value
import Mathlib.Algebra.BigOperators.Group.Finset.Basic
import Mathlib.Algebra.BigOperators.Fin

noncomputable section

open scoped BigOperators

namespace Cert.PairEmbed

open Idealize.ShloMosaic Idealize.ShloMosaic.ValueIdx

/-! ## A bin: clip, shift, or the extra bin -/

/-- The bin of the pair (a, b): when the condition bit is set, the difference a − b clipped to [lo, hi] and shifted;
    otherwise the extra bin. The clip is the maximum with lo first, then the minimum with hi. -/
def bin (lo hi shift other : BitVec 32) (same : BitVec 1) (a b : BitVec 32) : BitVec 32 :=
  Scalar.select same (IntOp.addi (IntOp.minsi hi (IntOp.maxsi lo (IntOp.subi a b))) shift) other

/-- A clipped word lies between the bounds, read signed, whatever was clipped. -/
theorem clip_bounds (lo hi x : BitVec 32) (h : lo.toInt ≤ hi.toInt) :
    lo.toInt ≤ (IntOp.minsi hi (IntOp.maxsi lo x)).toInt ∧ (IntOp.minsi hi (IntOp.maxsi lo x)).toInt ≤ hi.toInt := by
  have hm : lo.toInt ≤ (IntOp.maxsi lo x).toInt := by
    unfold IntOp.maxsi
    by_cases hx : x.toInt < lo.toInt
    · rw [if_pos (by simp [BitVec.slt, hx])]
    · rw [if_neg (by simp [BitVec.slt, hx])]; omega
  unfold IntOp.minsi
  by_cases hy : hi.toInt < (IntOp.maxsi lo x).toInt
  · rw [if_pos (by simp [BitVec.slt, hy])]; exact ⟨h, le_refl _⟩
  · rw [if_neg (by simp [BitVec.slt, hy])]; exact ⟨hm, by omega⟩

/-- A word whose signed value plus a small shift is a small natural number: the wrapped sum is that number. -/
theorem toNat_add_shift (y s : BitVec 32) (n : Nat) (hn : n < 2 ^ 31) (hs : s.toNat < 2 ^ 31)
    (h : y.toInt + (s.toNat : Int) = (n : Int)) : (y + s).toNat = n := by
  have hy := BitVec.toInt_eq_toNat_cond y
  have hyl := y.isLt
  rw [BitVec.toNat_add]
  split at hy <;> omega

/-- THE RANGE OF A BIN: with lo + shift ≥ 0, hi + shift < K and the extra bin < K, every bin is a word below K. -/
theorem bin_lt (lo hi shift other : BitVec 32) (same : BitVec 1) (a b : BitVec 32) (K : Nat) (hK : K ≤ 2 ^ 31)
    (hs : shift.toNat < 2 ^ 31) (hlh : lo.toInt ≤ hi.toInt) (h0 : 0 ≤ lo.toInt + (shift.toNat : Int))
    (h1 : hi.toInt + (shift.toNat : Int) < (K : Int)) (ho : other.toNat < K) :
    (bin lo hi shift other same a b).toNat < K := by
  unfold bin
  rcases BitVec.eq_zero_or_eq_one same with hz | ho1
  · rw [hz, select_zero]; exact ho
  · rw [ho1, select_one]
    obtain ⟨hl, hh⟩ := clip_bounds lo hi (IntOp.subi a b) hlh
    generalize IntOp.minsi hi (IntOp.maxsi lo (IntOp.subi a b)) = y at hl hh
    have hnn : 0 ≤ y.toInt + (shift.toNat : Int) := by omega
    have hlt : y.toInt + (shift.toNat : Int) < (K : Int) := by omega
    have e := toNat_add_shift y shift (y.toInt + (shift.toNat : Int)).toNat (by omega) hs (by omega)
    show (y + shift).toNat < K
    rw [e]; omega

/-- A word below 2³¹ reads the same signed and unsigned. -/
theorem toInt_of_small (d : BitVec 32) (h : d.toNat < 2 ^ 31) : d.toInt = (d.toNat : Int) := by
  have hy := BitVec.toInt_eq_toNat_cond d
  split at hy <;> omega

/-- The wrap of a negative row index (the word plus the row count when the word is negative) leaves a small
    non-negative word alone. -/
theorem wrap_of_small (d n : BitVec 32) (h : d.toNat < 2 ^ 31) :
    Scalar.select (IntOp.cmpi .slt d 0#32) (IntOp.addi d n) d = d := by
  have hc : IntOp.cmpi .slt d 0#32 = 0#1 := by
    unfold IntOp.cmpi
    have : d.slt 0#32 = false := by
      simp only [BitVec.slt, toInt_of_small d h]
      simp
    rw [this]; rfl
  rw [hc, select_zero]

/-- The gather's clamp of a start word into the rows [0, N − 1] leaves a word below N alone. -/
theorem clamp_of_small (d : BitVec 32) (N : Nat) (hN : N ≤ 2 ^ 31) (h : d.toNat < N) :
    min d.toInt.toNat (N - 1) = d.toNat := by
  rw [toInt_of_small d (by omega)]
  simp only [Int.toNat_natCast]
  omega

/-! ## The one-hot law -/

/-- A one-bit word widened to 32 bits and read signed is the bit. -/
theorem bit_toInt (b : BitVec 1) : ((b.setWidth 32).toInt : ℝ) = (b.toNat : ℝ) := by
  rcases BitVec.eq_zero_or_eq_one b with h | h <;> subst h <;> norm_num

/-- A one-bit word is 0 or 1 as an extended real, so a product with it selects. -/
theorem bit_mul (b : BitVec 1) (x : EReal) : (((b.toNat : ℝ) : EReal)) * x = if b = 1#1 then x else 0 := by
  rcases BitVec.eq_zero_or_eq_one b with h | h <;> subst h <;> simp

/-- THE ONE-HOT LAW over the extended reals: the sum over k < K of [d = k] · f k is f d, for a word d below K, whatever
    extended reals f takes. -/
theorem onehot_sum (K : Nat) (hK : K ≤ 2 ^ 32) (d : BitVec 32) (hd : d.toNat < K) (f : Fin K → EReal) :
    ∑ k : Fin K, ((((IntOp.cmpi .eq d (BitVec.ofNat 32 k.val)).setWidth 32).toInt : ℝ) : EReal) * f k = f ⟨d.toNat, hd⟩ := by
  rw [Finset.sum_eq_single (⟨d.toNat, hd⟩ : Fin K)]
  · have : IntOp.cmpi .eq d (BitVec.ofNat 32 d.toNat) = 1#1 := by
      unfold IntOp.cmpi
      simp
    rw [this, bit_toInt, bit_mul, if_pos rfl]
  · intro k _ hk
    have : IntOp.cmpi .eq d (BitVec.ofNat 32 k.val) = 0#1 := by
      unfold IntOp.cmpi
      have hne : (d == BitVec.ofNat 32 k.val) = false := by
        rw [beq_eq_false_iff_ne]
        intro he
        apply hk
        apply Fin.ext
        have := congrArg BitVec.toNat he
        rw [BitVec.toNat_ofNat, Nat.mod_eq_of_lt (by have := k.isLt; omega)] at this
        exact this.symm
      rw [hne]; rfl
    rw [this, bit_toInt, bit_mul, if_neg (by decide)]
  · intro h; exact absurd (Finset.mem_univ _) h

/-! ## Row lookup of a rank-2 table at a rank-4 array of start words -/

section Gather
variable {α : Type}

/-- The dimension numbers of a gather of whole rows of an [N, D] table at a [1, R, C, 1] array of start words: the row
    axis collapsed and indexed, the feature axis the one offset axis (result axis 3), the index vector on start-indices
    axis 3. -/
abbrev rowGather4 (N D R C : Nat)
    (wf : GatherDims.WF ⟨2, ![N, D]⟩ ⟨4, ![1, R, C, 1]⟩ ⟨4, ![1, R, C, D]⟩ [3] [0] [] [0] [] 3 ![1, D]) :
    GatherDims ⟨2, ![N, D]⟩ ⟨4, ![1, R, C, 1]⟩ ⟨4, ![1, R, C, D]⟩ where
  offsetDims := [3]
  collapsedSliceDims := [0]
  operandBatchingDims := []
  startIndicesBatchingDims := []
  startIndexMap := [0]
  indexVectorDim := 3
  sliceSizes := ![1, D]
  wf := wf

/-- WHOLE-ROW GATHER, READ AT AN INDEX: the result at (0, r, c, q) is the table at the start word of (0, r, c, 0), read
    signed and clamped into [0, N − 1], feature q. -/
theorem rowGather4_apply {N D R C w : Nat} (hN : 0 < N)
    (wf : GatherDims.WF ⟨2, ![N, D]⟩ ⟨4, ![1, R, C, 1]⟩ ⟨4, ![1, R, C, D]⟩ [3] [0] [] [0] [] 3 ![1, D])
    (x : (⟨2, ![N, D]⟩ : Shape).Idx → α) (idx : IVec ⟨4, ![1, R, C, 1]⟩ w) (r : Fin R) (c : Fin C) (q : Fin D) :
    Host.gather (rowGather4 N D R C wf) x idx (ix4 (0 : Fin 1) r c q)
      = x (ix2 ⟨min (idx (ix4 (0 : Fin 1) r c (0 : Fin 1))).toInt.toNat (N - 1), by omega⟩ q) := by
  unfold Host.gather
  congr 1
  funext a
  refine Fin.ext ?_
  match a with
  | ⟨0, _⟩ =>
    show (rowGather4 N D R C wf).start (ix4 (0 : Fin 1) r c q) idx 0 + (rowGather4 N D R C wf).batchCoord (ix4 (0 : Fin 1) r c q) 0
      + (rowGather4 N D R C wf).offCoord (ix4 (0 : Fin 1) r c q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather4 N D R C wf).startIndexMap from List.mem_singleton.mpr rfl)]
    have hsi : (rowGather4 N D R C wf).siIdx (ix4 (0 : Fin 1) r c q)
        ⟨List.idxOf (0 : Fin 2) (rowGather4 N D R C wf).startIndexMap, List.idxOf_lt_length_iff.2 (List.mem_singleton.mpr rfl)⟩
        = ix4 (0 : Fin 1) r c (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (rowGather4 N D R C wf).start (ix4 (0 : Fin 1) r c q) idx 1 + (rowGather4 N D R C wf).batchCoord (ix4 (0 : Fin 1) r c q) 1
      + (rowGather4 N D R C wf).offCoord (ix4 (0 : Fin 1) r c q) 1 = q.val
    have h1 : (1 : Fin 2) ∉ (rowGather4 N D R C wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The whole-row gather read at an index, for any dimension numbers whose fields are the whole-row ones: the fields
    substituted, it is the statement for the explicit record. -/
theorem rowGather4_apply_of {N D R C w : Nat} (hN : 0 < N)
    (d : GatherDims ⟨2, ![N, D]⟩ ⟨4, ![1, R, C, 1]⟩ ⟨4, ![1, R, C, D]⟩)
    (hoff : d.offsetDims = [3]) (hcoll : d.collapsedSliceDims = [0]) (hob : d.operandBatchingDims = [])
    (hsib : d.startIndicesBatchingDims = []) (hsim : d.startIndexMap = [0]) (hivd : d.indexVectorDim = 3)
    (hss : d.sliceSizes = ![1, D])
    (x : (⟨2, ![N, D]⟩ : Shape).Idx → α) (idx : IVec ⟨4, ![1, R, C, 1]⟩ w) (r : Fin R) (c : Fin C) (q : Fin D) :
    Host.gather d x idx (ix4 (0 : Fin 1) r c q)
      = x (ix2 ⟨min (idx (ix4 (0 : Fin 1) r c (0 : Fin 1))).toInt.toNat (N - 1), by omega⟩ q) := by
  obtain ⟨off, coll, ob, sib, sim, ivd, ss, wf⟩ := d
  simp only at hoff hcoll hob hsib hsim hivd hss
  subst hoff hcoll hob hsib hsim hivd hss
  exact rowGather4_apply hN wf x idx r c q

end Gather

end Cert.PairEmbed

namespace Cert.PairEmbed.OneHot

open Idealize.ShloMosaic Idealize.ShloMosaic.ValueIdx

/-! ## The operand indices of an M×K by K×N product -/

section Plain
variable (M K N : Nat)

/-- On the left operand's row axis the product's index keeps the result's row … -/
theorem plain_lhs_0 (j : (⟨2, ![M, N]⟩ : Shape).Idx) (k : (DotDims.plain M K N).contr.Idx) :
    ((DotDims.plain M K N).lhsIdx j k 0 : ℕ) = j 0 := by
  simp [DotDims.lhsIdx, DotDims.plain]; rfl
/-- … and on its column axis reads the contraction position. -/
theorem plain_lhs_1 (j : (⟨2, ![M, N]⟩ : Shape).Idx) (k : (DotDims.plain M K N).contr.Idx) :
    ((DotDims.plain M K N).lhsIdx j k 1 : ℕ) = k ⟨0, Nat.one_pos⟩ := by
  simp [DotDims.lhsIdx, DotDims.plain]; rfl
/-- On the right operand's row axis it reads the contraction position … -/
theorem plain_rhs_0 (j : (⟨2, ![M, N]⟩ : Shape).Idx) (k : (DotDims.plain M K N).contr.Idx) :
    ((DotDims.plain M K N).rhsIdx j k 0 : ℕ) = k ⟨0, Nat.one_pos⟩ := by
  simp [DotDims.rhsIdx, DotDims.plain]; rfl
/-- … and on its column axis keeps the result's column. -/
theorem plain_rhs_1 (j : (⟨2, ![M, N]⟩ : Shape).Idx) (k : (DotDims.plain M K N).contr.Idx) :
    ((DotDims.plain M K N).rhsIdx j k 1 : ℕ) = j 1 := by
  simp [DotDims.rhsIdx, DotDims.plain]; rfl

/-- The left operand's index at result (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  funext x
  refine Fin.ext ?_
  match x with
  | ⟨0, _⟩ => exact plain_lhs_0 M K N _ _
  | ⟨1, _⟩ => exact (plain_lhs_1 M K N _ _).trans (contrEquiv1_symm_val _ K rfl rfl k)

/-- The right operand's index at result (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  funext x
  refine Fin.ext ?_
  match x with
  | ⟨0, _⟩ => exact (plain_rhs_0 M K N _ _).trans (contrEquiv1_symm_val _ K rfl rfl k)
  | ⟨1, _⟩ => exact plain_rhs_1 M K N _ _

end Plain

end Cert.PairEmbed.OneHot

end
-- ==== Proof.PairEmbedSpec.lean ====
/-
  The relative-position pair embedding as ONE function of its six argument arrays.

  For residues i, j and feature q the result is

      W[dSi(i, j), q] + W[66 + dTi(i, j), q] + [ent i = ent j] · W[132, q] + W[133 + dSym(i, j), q]

  where each d is a bin of the pair (a clipped, shifted difference of two words, or an extra bin): dSi of the sequence
  indices on one chain, dTi of the token indices on one chain and one residue, dSym of the symmetry copies on one entity.
  The first 66 rows of the weight table W are the sequence-offset rows, the next 66 the token-offset rows, row 132 the
  entity row and the last 6 the symmetry-offset rows. The four terms are added left to right. Every bin is below its
  slice's row count (binSi_lt, binTi_lt, binSym_lt), which is all either program needs to look a row up.
-/
import proofs.«422989_j50010599195179_3_alg».proof.Proof.LibOneHotRowGather

noncomputable section

namespace Cert.PairEmbed

open Idealize.ShloMosaic Idealize.ShloMosaic.ValueIdx

/-! ## The result as one function of the six arguments -/

/-- A sequence array [1, 1024] of words, the weight table [139, 128], the result [1, 1024, 1024, 128]. -/
abbrev Seq : Shape := ⟨2, ![1, 1024]⟩
abbrev Tab : Shape := ⟨2, ![139, 128]⟩
abbrev Out : Shape := ⟨4, ![1, 1024, 1024, 128]⟩

/-- Entry i of a sequence array. -/
abbrev ent1 (v : Seq.Idx → BitVec 32) (i : Fin 1024) : BitVec 32 := v (ix2 (0 : Fin 1) i)

/-- The sequence-offset bin of a pair: the index difference clipped to [−32, 32] plus 32 on one chain, else bin 65. -/
def binSi (colI colJ siI siJ : BitVec 32) : BitVec 32 :=
  bin 4294967264#32 32#32 32#32 65#32 (IntOp.cmpi .eq colI colJ) siI siJ

/-- The token-offset bin of a pair: the token difference clipped to [−32, 32] plus 32 on one chain and one residue,
    else bin 65. -/
def binTi (colI colJ siI siJ tokI tokJ : BitVec 32) : BitVec 32 :=
  bin 4294967264#32 32#32 32#32 65#32 (IntOp.andi (IntOp.cmpi .eq colI colJ) (IntOp.cmpi .eq siI siJ)) tokI tokJ

/-- The symmetry-offset bin of a pair: the copy difference clipped to [−2, 2] plus 2 on one entity, else bin 5. -/
def binSym (entI entJ symI symJ : BitVec 32) : BitVec 32 :=
  bin 4294967294#32 2#32 2#32 5#32 (IntOp.cmpi .eq entI entJ) symI symJ

theorem binSi_lt (colI colJ siI siJ : BitVec 32) : (binSi colI colJ siI siJ).toNat < 66 :=
  bin_lt _ _ _ _ _ _ _ 66 (by norm_num) (by decide) (by decide) (by decide) (by decide) (by decide)

theorem binTi_lt (colI colJ siI siJ tokI tokJ : BitVec 32) : (binTi colI colJ siI siJ tokI tokJ).toNat < 66 :=
  bin_lt _ _ _ _ _ _ _ 66 (by norm_num) (by decide) (by decide) (by decide) (by decide) (by decide)

theorem binSym_lt (entI entJ symI symJ : BitVec 32) : (binSym entI entJ symI symJ).toNat < 6 :=
  bin_lt _ _ _ _ _ _ _ 6 (by norm_num) (by decide) (by decide) (by decide) (by decide) (by decide)

/-- Row r of the table at feature q (0 past the table: never met, every row named below is a row). -/
def rowAt (W : Tab.Idx → EReal) (r : Nat) (q : Fin 128) : EReal := if h : r < 139 then W (ix2 ⟨r, h⟩ q) else 0

/-- The table at an index whose coordinates are (r, q) is row r at q. -/
theorem rowAt_eq (W : Tab.Idx → EReal) (k : Tab.Idx) (r : Nat) (q : Fin 128) (h0 : (k 0).val = r) (h1 : (k 1).val = q.val) :
    W k = rowAt W r q := by
  have hr : r < 139 := by rw [← h0]; exact (k 0).isLt
  unfold rowAt
  rw [dif_pos hr]
  congr 1
  funext a
  refine Fin.ext ?_
  match a with
  | ⟨0, _⟩ => exact h0
  | ⟨1, _⟩ => exact h1

/-- THE RESULT of one pair at feature q, from the ten words the pair reads: the three looked-up rows and the entity row,
    summed left to right. -/
def pairEmbedWords (siI siJ colI colJ symI symJ entI entJ tokI tokJ : BitVec 32) (W : Tab.Idx → EReal) (q : Fin 128) : EReal :=
  rowAt W (binSi colI colJ siI siJ).toNat q + rowAt W (66 + (binTi colI colJ siI siJ tokI tokJ).toNat) q
    + (((IntOp.cmpi .eq entI entJ).toNat : ℝ) : EReal) * rowAt W 132 q
    + rowAt W (133 + (binSym entI entJ symI symJ).toNat) q

/-- THE RESULT at residues (i, j) and feature q. -/
def pairEmbedAt (si col sym ent tok : Seq.Idx → BitVec 32) (W : Tab.Idx → EReal) (i j : Fin 1024) (q : Fin 128) : EReal :=
  pairEmbedWords (ent1 si i) (ent1 si j) (ent1 col i) (ent1 col j) (ent1 sym i) (ent1 sym j) (ent1 ent i) (ent1 ent j)
    (ent1 tok i) (ent1 tok j) W q

/-- THE RESULT ARRAY as one function of the six argument arrays (sequence index, chain, symmetry copy, entity, token
    index, weights). -/
def pairEmbed (si col sym ent tok : Seq.Idx → BitVec 32) (W : Tab.Idx → EReal) : Out.Idx → EReal :=
  fun y => pairEmbedAt si col sym ent tok W (y 1) (y 2) (y 3)

end Cert.PairEmbed

end
-- ==== Proof.BlockLayout.lean ====
/-
  The re-layouts of one output block, each read at an index, over literal shapes and with no program in sight.

  A block of the result covers 64 residues i (rows) by 128 residues j (columns) by 128 features. The body loads, for each
  sequence array, the strip of 64 words for its rows as [1, 64] and the strip of 128 words for its columns as [1, 128];
  it views the first as a column [64, 1], keeps the second as a row [1, 128], and broadcasts both to the [64, 128] grid of
  pairs. A bin [64, 128] gets a trailing unit axis and is broadcast along a new last axis (66 or 6 candidate rows, or the
  128 features). The weight table [139, 128] is cut into row ranges. This file says what each of these reads:

  * col_apply, row_apply: the column at (a, ·) and the row at (·, b) are the strip at a, at b;
  * bcastCol_apply, bcastRow_apply: broadcast to the grid, entry (a, b) is the column at a, the row at b;
  * lastAxis_apply: a [64, 128] grid spread along a new last axis reads, at (a, b, ·), the grid at (a, b);
  * featRow_apply: a [128] vector laid along the last axis of [64, 128, 128] reads, at (·, ·, q), the vector at q;
  * rowsOf_apply, rowOf_apply: a slice of the table starting at row o reads row o + k.
-/
import Idealize.ShloMosaic.PureOps.Ideal
import Idealize.ShloMosaic.Lib.ValueIdx
import Idealize.ShloMosaic.Lib.Pipeline.Value

noncomputable section

namespace Cert.PairEmbed.Layout

open Idealize.ShloMosaic Idealize.ShloMosaic.ValueIdx

variable {α : Type}

/-- A strip [1, 64] viewed as a vector [64] and then as a column [64, 1]: entry (a, 0) is the strip at a. -/
theorem col_apply (v : (⟨2, ![1, 64]⟩ : Shape).Idx → α) (h1 : (⟨2, ![1, 64]⟩ : Shape).ShapeCasts ⟨1, ![64]⟩)
    (h2 : (⟨1, ![64]⟩ : Shape).ShapeCasts ⟨2, ![64, 1]⟩) (a : Fin 64) (z : Fin 1) :
    shapeCast ⟨2, ![64, 1]⟩ (shapeCast ⟨1, ![64]⟩ v h1) h2 (ix2 a z) = v (ix2 (0 : Fin 1) a) := by
  refine (shapeCast_apply _ h2 (ix2 a z) (ix1 a) ?_).trans (shapeCast_apply _ h1 (ix1 a) (ix2 (0 : Fin 1) a) ?_)
  · rw [Shape.rowMajor_val_one, Shape.rowMajor_val_two]
    show a.val = a.val * 1 + z.val
    omega
  · rw [Shape.rowMajor_val_one, Shape.rowMajor_val_two]
    show 0 * 64 + a.val = a.val
    omega

/-- A strip [1, 128] viewed as a vector [128] and back as a row [1, 128] is the strip. -/
theorem row_apply (v : (⟨2, ![1, 128]⟩ : Shape).Idx → α) (h1 : (⟨2, ![1, 128]⟩ : Shape).ShapeCasts ⟨1, ![128]⟩)
    (h2 : (⟨1, ![128]⟩ : Shape).ShapeCasts ⟨2, ![1, 128]⟩) :
    shapeCast ⟨2, ![1, 128]⟩ (shapeCast ⟨1, ![128]⟩ v h1) h2 = v :=
  shapeCast_shapeCast v h1 h2

/-- A column [64, 1] broadcast to the grid [64, 128]: entry (a, b) is the column at (a, 0). -/
theorem bcastCol_apply (v : (⟨2, ![64, 1]⟩ : Shape).Idx → α) (h : (⟨2, ![64, 1]⟩ : Shape).Broadcasts ⟨2, ![64, 128]⟩)
    (a : Fin 64) (b : Fin 128) : broadcastTo ⟨2, ![64, 128]⟩ v h (ix2 a b) = v (ix2 a (0 : Fin 1)) := by
  refine broadcastTo_apply v h (ix2 a b) (ix2 a (0 : Fin 1)) fun x => ?_
  match x with
  | ⟨0, _⟩ => rfl
  | ⟨1, _⟩ => rfl

/-- A row [1, 128] broadcast to the grid [64, 128]: entry (a, b) is the row at (0, b). -/
theorem bcastRow_apply (v : (⟨2, ![1, 128]⟩ : Shape).Idx → α) (h : (⟨2, ![1, 128]⟩ : Shape).Broadcasts ⟨2, ![64, 128]⟩)
    (a : Fin 64) (b : Fin 128) : broadcastTo ⟨2, ![64, 128]⟩ v h (ix2 a b) = v (ix2 (0 : Fin 1) b) := by
  refine broadcastTo_apply v h (ix2 a b) (ix2 (0 : Fin 1) b) fun x => ?_
  match x with
  | ⟨0, _⟩ => rfl
  | ⟨1, _⟩ => rfl

/-- A grid [64, 128] given a trailing unit axis and spread along a new last axis of extent K: entry (a, b, k) is the
    grid at (a, b). -/
theorem lastAxis_apply {K : Nat} (v : (⟨2, ![64, 128]⟩ : Shape).Idx → α)
    (h1 : (⟨2, ![64, 128]⟩ : Shape).ShapeCasts ⟨3, ![64, 128, 1]⟩)
    (h2 : (⟨3, ![64, 128, 1]⟩ : Shape).Broadcasts ⟨3, ![64, 128, K]⟩) (a : Fin 64) (b : Fin 128) (k : Fin K) :
    broadcastTo ⟨3, ![64, 128, K]⟩ (shapeCast ⟨3, ![64, 128, 1]⟩ v h1) h2 (ix3 a b k) = v (ix2 a b) := by
  refine (broadcastTo_apply _ h2 (ix3 a b k) (ix3 a b (0 : Fin 1)) fun x => ?_).trans
    (shapeCast_apply v h1 (ix3 a b (0 : Fin 1)) (ix2 a b) ?_)
  · match x with
    | ⟨0, _⟩ => rfl
    | ⟨1, _⟩ => rfl
    | ⟨2, _⟩ => rfl
  · rw [Shape.rowMajor_val_two, Shape.rowMajor_val_three]
    show a.val * 128 + b.val = (a.val * 128 + b.val) * 1 + 0
    omega

/-- A vector [128] viewed as [1, 1, 128] and broadcast to [64, 128, 128]: entry (a, b, q) is the vector at q. -/
theorem featRow_apply (v : (⟨1, ![128]⟩ : Shape).Idx → α) (h1 : (⟨1, ![128]⟩ : Shape).ShapeCasts ⟨3, ![1, 1, 128]⟩)
    (h2 : (⟨3, ![1, 1, 128]⟩ : Shape).Broadcasts ⟨3, ![64, 128, 128]⟩) (a : Fin 64) (b : Fin 128) (q : Fin 128) :
    broadcastTo ⟨3, ![64, 128, 128]⟩ (shapeCast ⟨3, ![1, 1, 128]⟩ v h1) h2 (ix3 a b q) = v (ix1 q) := by
  refine (broadcastTo_apply _ h2 (ix3 a b q) (ix3 (0 : Fin 1) (0 : Fin 1) q) fun x => ?_).trans
    (shapeCast_apply v h1 (ix3 (0 : Fin 1) (0 : Fin 1) q) (ix1 q) ?_)
  · match x with
    | ⟨0, _⟩ => rfl
    | ⟨1, _⟩ => rfl
    | ⟨2, _⟩ => rfl
  · rw [Shape.rowMajor_val_one, Shape.rowMajor_val_three]
    show q.val = (0 * 1 + 0) * 128 + q.val
    omega

/-- K rows of the table [139, 128] from row o on: entry (k, q) is the table at (o + k, q). -/
theorem rowsOf_apply {K : Nat} (o : Nat) (W : (⟨2, ![139, 128]⟩ : Shape).Idx → α)
    (h : (⟨2, ![139, 128]⟩ : Shape).Slices ![o, 0] ⟨2, ![K, 128]⟩) (k : Fin K) (q : Fin 128) (hk : o + k.val < 139) :
    extractStridedSlice ⟨2, ![K, 128]⟩ ![o, 0] W h (ix2 k q) = W (ix2 ⟨o + k.val, hk⟩ q) := by
  refine extractStridedSlice_apply _ W h (ix2 k q) (ix2 ⟨o + k.val, hk⟩ q) fun x => ?_
  match x with
  | ⟨0, _⟩ => rfl
  | ⟨1, _⟩ => show q.val = 0 + q.val; omega

/-- One row of the table, from row o, viewed as a vector [128]: entry q is the table at (o, q). -/
theorem rowOf_apply (o : Nat) (W : (⟨2, ![139, 128]⟩ : Shape).Idx → α)
    (h : (⟨2, ![139, 128]⟩ : Shape).Slices ![o, 0] ⟨2, ![1, 128]⟩) (h1 : (⟨2, ![1, 128]⟩ : Shape).ShapeCasts ⟨1, ![128]⟩)
    (q : Fin 128) (ho : o < 139) :
    shapeCast ⟨1, ![128]⟩ (extractStridedSlice ⟨2, ![1, 128]⟩ ![o, 0] W h) h1 (ix1 q) = W (ix2 ⟨o, ho⟩ q) := by
  refine (shapeCast_apply _ h1 (ix1 q) (ix2 (0 : Fin 1) q) ?_).trans ?_
  · rw [Shape.rowMajor_val_one, Shape.rowMajor_val_two]
    show 0 * 128 + q.val = q.val
    omega
  · refine extractStridedSlice_apply _ W h (ix2 (0 : Fin 1) q) (ix2 ⟨o, ho⟩ q) fun x => ?_
    match x with
    | ⟨0, _⟩ => show o = o + 0; omega
    | ⟨1, _⟩ => show q.val = 0 + q.val; omega

end Cert.PairEmbed.Layout

end
-- ==== Proof.OneHotRows.lean ====
/-
  Row lookup by a one-hot product. For a grid [64, 128] of words d and a table [K, 128], the body forms the one-hot
  tensor [64, 128, K] whose entry (a, b, k) is 1 when d(a, b) = k and 0 otherwise (a compare against the position along
  the last axis, widened and converted), flattens it to [8192, K], multiplies by the table into a zero accumulator and
  views the product [8192, 128] as [64, 128, 128]. At the ideal values the product at row a·128 + b, column q is the sum
  over k of onehot(a, b, k) · table(k, q), and by the one-hot law that sum is table(d(a, b), q), as soon as d(a, b) < K.
  Nothing is asked of the table's entries.
-/
import proofs.«422989_j50010599195179_3_alg».proof.Proof.PairEmbedSpec
import proofs.«422989_j50010599195179_3_alg».proof.Proof.BlockLayout
import Idealize.ShloMosaic.PureOps.Ideal.Laws
import Idealize.ShloMosaic.PureOps.Contract

noncomputable section

open scoped BigOperators

namespace Cert.PairEmbed.OneHot

open Idealize.ShloMosaic Idealize.ShloMosaic.ValueIdx Cert.PairEmbed Cert.PairEmbed.Layout

/-! ## The one-hot product is a row lookup -/

/-- ROW LOOKUP BY A ONE-HOT PRODUCT, READ AT AN INDEX: entry (a, b, q) of the product is the table at (d(a, b), q). -/
theorem onehotRows_apply {K : Nat} (hK : K ≤ 2 ^ 32)
    (idx : IVec ⟨2, ![64, 128]⟩ 32) (tbl : FVec Ideal ⟨2, ![K, 128]⟩ .f32)
    (h1 : (⟨2, ![64, 128]⟩ : Shape).ShapeCasts ⟨3, ![64, 128, 1]⟩)
    (h2 : (⟨3, ![64, 128, 1]⟩ : Shape).Broadcasts ⟨3, ![64, 128, K]⟩)
    (h3 : (⟨3, ![64, 128, K]⟩ : Shape).Iotas .tc 32 [2]) (h4 : 1 < 32)
    (h5 : (⟨3, ![64, 128, K]⟩ : Shape).ShapeCasts ⟨2, ![8192, K]⟩)
    (h6 : (⟨2, ![8192, 128]⟩ : Shape).ShapeCasts ⟨3, ![64, 128, 128]⟩)
    (a : Fin 64) (b : Fin 128) (q : Fin 128) (hd : (idx (ix2 a b)).toNat < K) :
    shapeCast ⟨3, ![64, 128, 128]⟩
      (matmul (DotDims.plain 8192 K 128) (some .fp32)
        (shapeCast ⟨2, ![8192, K]⟩
          (sitofp (F := Ideal) .f32
            (extui 32 (cmpi .eq (broadcastTo ⟨3, ![64, 128, K]⟩ (shapeCast ⟨3, ![64, 128, 1]⟩ idx h1) h2)
              (iota .tc ⟨3, ![64, 128, K]⟩ 32 [2] h3)) h4)) h5)
        tbl (constant (F := Ideal) ⟨2, ![8192, 128]⟩ .f32 0x00000000#32)) h6 (ix3 a b q)
      = tbl (ix2 ⟨(idx (ix2 a b)).toNat, hd⟩ q) := by
  have hp : a.val * 128 + b.val < 8192 := by have := a.isLt; have := b.isLt; omega
  refine (shapeCast_apply _ h6 (ix3 a b q) (ix2 (⟨a.val * 128 + b.val, hp⟩ : Fin 8192) q) ?_).trans ?_
  · rw [Shape.rowMajor_val_two, Shape.rowMajor_val_three]
    rfl
  · show FloatOps.matmul (DotDims.plain 8192 K 128) (some .fp32) _ tbl (constant (F := Ideal) ⟨2, ![8192, 128]⟩ .f32 0x00000000#32) _ = _
    rw [Ideal.matmul_constant_zero_apply, ← Equiv.sum_comp (contrEquiv1 (DotDims.plain 8192 K 128) K rfl rfl).symm,
      ← onehot_sum K hK (idx (ix2 a b)) hd (fun k => tbl (ix2 k q))]
    refine Finset.sum_congr rfl fun k _ => ?_
    rw [plain_lhsIdx, plain_rhsIdx]
    congr 1
    refine (shapeCast_apply _ h5 (ix2 (⟨a.val * 128 + b.val, hp⟩ : Fin 8192) k) (ix3 a b k) ?_).trans ?_
    · rw [Shape.rowMajor_val_two, Shape.rowMajor_val_three]
      rfl
    · show FloatOps.sitofp (F := Ideal) .f32
          ((IntOp.cmpi .eq (broadcastTo ⟨3, ![64, 128, K]⟩ (shapeCast ⟨3, ![64, 128, 1]⟩ idx h1) h2 (ix3 a b k))
            (iota .tc ⟨3, ![64, 128, K]⟩ 32 [2] h3 (ix3 a b k))).setWidth 32) = _
      rw [lastAxis_apply, iota_single_apply]
      rfl

end Cert.PairEmbed.OneHot

end
-- ==== Proof.KernelPayload.lean ====
/-
  What the body stores, at an index of the block. The body's one store writes, at row a, column b and feature q of its
  [1, 64, 128, 128] block, the sum of three one-hot products and the entity row, each formed from words of the strips
  loaded for rows (at a) and for columns (at b) and from the whole weight table W:

      W[dSi, q] + W[66 + dTi, q] + [ent a = ent b] · W[132, q] + W[133 + dSym, q]

  with the bins d of the specification. The steps: the strips' column and row forms read the strip (payloads 2 to 11);
  the three bin grids read the specification's bins at the strips' words (payloads 13 to 16); the table's row ranges
  read the table's rows (payloads 17 to 19); and each one-hot product is a row lookup because a bin is below its
  range's row count. The block has a leading unit axis over the [64, 128, 128] sum.
-/
import proofs.«422989_j50010599195179_3_alg».proof.Proof.Gen.KernelIdeal.Skeleton
import proofs.«422989_j50010599195179_3_alg».proof.Proof.PairEmbedSpec
import proofs.«422989_j50010599195179_3_alg».proof.Proof.BlockLayout
import proofs.«422989_j50010599195179_3_alg».proof.Proof.OneHotRows

noncomputable section

namespace Cert.KernelIdeal.Hand

open Cert.KernelIdeal Cert.KernelIdeal.Gen Cert.PairEmbed Cert.PairEmbed.Layout Cert.PairEmbed.OneHot
open Idealize.ShloMosaic Idealize.ShloMosaic.ValueIdx

/-! ## The strips: column form, row form, and their broadcasts to the grid of pairs -/

theorem pay2_apply (v : Vec Ideal S1x64 .i32) (a : Fin 64) (z : Fin 1) : k0_pay2 (F := Ideal) v (ix2 a z) = v (ix2 (0 : Fin 1) a) :=
  col_apply v _ _ a z
theorem pay4_apply (v : Vec Ideal S1x64 .i32) (a : Fin 64) (z : Fin 1) : k0_pay4 (F := Ideal) v (ix2 a z) = v (ix2 (0 : Fin 1) a) :=
  col_apply v _ _ a z
theorem pay6_apply (v : Vec Ideal S1x64 .i32) (a : Fin 64) (z : Fin 1) : k0_pay6 (F := Ideal) v (ix2 a z) = v (ix2 (0 : Fin 1) a) :=
  col_apply v _ _ a z
theorem pay8_apply (v : Vec Ideal S1x64 .i32) (a : Fin 64) (z : Fin 1) : k0_pay8 (F := Ideal) v (ix2 a z) = v (ix2 (0 : Fin 1) a) :=
  col_apply v _ _ a z
theorem pay3_eq (v : Vec Ideal S1x128 .i32) : k0_pay3 (F := Ideal) v = v := row_apply v _ _
theorem pay5_eq (v : Vec Ideal S1x128 .i32) : k0_pay5 (F := Ideal) v = v := row_apply v _ _
theorem pay7_eq (v : Vec Ideal S1x128 .i32) : k0_pay7 (F := Ideal) v = v := row_apply v _ _
theorem pay9_eq (v : Vec Ideal S1x128 .i32) : k0_pay9 (F := Ideal) v = v := row_apply v _ _

theorem pay10_apply (v : Vec Ideal S1x64 .i32) (a : Fin 64) (b : Fin 128) : k0_pay10 (F := Ideal) v (ix2 a b) = v (ix2 (0 : Fin 1) a) := by
  unfold k0_pay10
  rw [bcastCol_apply]
  exact col_apply v _ _ a 0
theorem pay11_apply (v : Vec Ideal S1x128 .i32) (a : Fin 64) (b : Fin 128) : k0_pay11 (F := Ideal) v (ix2 a b) = v (ix2 (0 : Fin 1) b) := by
  unfold k0_pay11
  rw [bcastRow_apply, row_apply]

/-! ## The bin grids at a pair -/

section Bins
variable (siI colI symI entI tokI : Vec Ideal S1x64 .i32) (siJ colJ symJ entJ tokJ : Vec Ideal S1x128 .i32)
variable (a : Fin 64) (b : Fin 128)

/-- The entity bit of the pair (a, b). -/
theorem pay13_apply :
    k0_pay13 (k0_pay6 (F := Ideal) entI) (k0_pay7 (F := Ideal) entJ) (ix2 a b)
      = IntOp.cmpi .eq (entI (ix2 (0 : Fin 1) a)) (entJ (ix2 (0 : Fin 1) b)) := by
  show IntOp.cmpi .eq (broadcastTo S64x128 (k0_pay6 (F := Ideal) entI) _ (ix2 a b))
    (broadcastTo S64x128 (k0_pay7 (F := Ideal) entJ) _ (ix2 a b)) = _
  rw [bcastCol_apply, bcastRow_apply, pay6_apply, pay7_eq]

/-- The sequence-offset bin of the pair (a, b). -/
theorem pay14_apply :
    k0_pay14 (k0_pay2 (F := Ideal) siI) (k0_pay3 (F := Ideal) siJ) (k0_pay10 (F := Ideal) colI) (k0_pay11 (F := Ideal) colJ) (ix2 a b)
      = binSi (colI (ix2 (0 : Fin 1) a)) (colJ (ix2 (0 : Fin 1) b)) (siI (ix2 (0 : Fin 1) a)) (siJ (ix2 (0 : Fin 1) b)) := by
  show bin 4294967264#32 32#32 32#32 65#32
    (IntOp.cmpi .eq (k0_pay10 (F := Ideal) colI (ix2 a b)) (k0_pay11 (F := Ideal) colJ (ix2 a b)))
    (broadcastTo S64x128 (k0_pay2 (F := Ideal) siI) _ (ix2 a b)) (broadcastTo S64x128 (k0_pay3 (F := Ideal) siJ) _ (ix2 a b)) = _
  rw [pay10_apply, pay11_apply, bcastCol_apply, bcastRow_apply, pay2_apply, pay3_eq]
  rfl

/-- The token-offset bin of the pair (a, b). -/
theorem pay15_apply :
    k0_pay15 (k0_pay2 (F := Ideal) siI) (k0_pay3 (F := Ideal) siJ) (k0_pay8 (F := Ideal) tokI) (k0_pay9 (F := Ideal) tokJ)
        (k0_pay10 (F := Ideal) colI) (k0_pay11 (F := Ideal) colJ) (ix2 a b)
      = binTi (colI (ix2 (0 : Fin 1) a)) (colJ (ix2 (0 : Fin 1) b)) (siI (ix2 (0 : Fin 1) a)) (siJ (ix2 (0 : Fin 1) b))
          (tokI (ix2 (0 : Fin 1) a)) (tokJ (ix2 (0 : Fin 1) b)) := by
  show bin 4294967264#32 32#32 32#32 65#32
    (IntOp.andi (IntOp.cmpi .eq (k0_pay10 (F := Ideal) colI (ix2 a b)) (k0_pay11 (F := Ideal) colJ (ix2 a b)))
      (IntOp.cmpi .eq (broadcastTo S64x128 (k0_pay2 (F := Ideal) siI) _ (ix2 a b))
        (broadcastTo S64x128 (k0_pay3 (F := Ideal) siJ) _ (ix2 a b))))
    (broadcastTo S64x128 (k0_pay8 (F := Ideal) tokI) _ (ix2 a b)) (broadcastTo S64x128 (k0_pay9 (F := Ideal) tokJ) _ (ix2 a b)) = _
  rw [pay10_apply, pay11_apply, bcastCol_apply, bcastRow_apply, bcastCol_apply, bcastRow_apply, pay2_apply, pay3_eq, pay8_apply, pay9_eq]
  rfl

/-- The symmetry-offset bin of the pair (a, b). -/
theorem pay16_apply :
    k0_pay16 (k0_pay4 (F := Ideal) symI) (k0_pay5 (F := Ideal) symJ) (k0_pay6 (F := Ideal) entI) (k0_pay7 (F := Ideal) entJ) (ix2 a b)
      = binSym (entI (ix2 (0 : Fin 1) a)) (entJ (ix2 (0 : Fin 1) b)) (symI (ix2 (0 : Fin 1) a)) (symJ (ix2 (0 : Fin 1) b)) := by
  show bin 4294967294#32 2#32 2#32 5#32
    (k0_pay13 (k0_pay6 (F := Ideal) entI) (k0_pay7 (F := Ideal) entJ) (ix2 a b))
    (broadcastTo S64x128 (k0_pay4 (F := Ideal) symI) _ (ix2 a b)) (broadcastTo S64x128 (k0_pay5 (F := Ideal) symJ) _ (ix2 a b)) = _
  rw [pay13_apply, bcastCol_apply, bcastRow_apply, pay4_apply, pay5_eq]
  rfl

end Bins

/-! ## The table's row ranges -/

section Table
variable (W : Vec Ideal S139x128 .f32) (q : Fin 128)

theorem pay17_apply (k : Fin 66) : k0_pay17 (F := Ideal) W (ix2 k q) = rowAt W k.val q := by
  unfold k0_pay17
  rw [rowsOf_apply 0 W _ k q (by omega)]
  exact rowAt_eq W _ k.val q (by show 0 + k.val = k.val; omega) rfl

theorem pay18_apply (k : Fin 66) : k0_pay18 (F := Ideal) W (ix2 k q) = rowAt W (66 + k.val) q := by
  unfold k0_pay18
  rw [rowsOf_apply 66 W _ k q (by omega)]
  exact rowAt_eq W _ (66 + k.val) q rfl rfl

theorem pay19_apply : k0_pay19 (F := Ideal) W (ix1 q) = rowAt W 132 q := by
  unfold k0_pay19
  rw [rowOf_apply 132 W _ _ q (by norm_num)]
  exact rowAt_eq W _ 132 q rfl rfl

theorem rows133_apply (h : S139x128.Slices ![133, 0] S6x128) (k : Fin 6) :
    extractStridedSlice S6x128 ![133, 0] W h (ix2 k q) = rowAt W (133 + k.val) q :=
  (rowsOf_apply 133 W h k q (by omega)).trans (rowAt_eq W _ (133 + k.val) q rfl rfl)

end Table

/-! ## The stored block at an index -/

/-- The body's dimension numbers are the plain M×K by K×N ones. -/
theorem dot66_eq : dot_S8192x66_S66x128_S8192x128_1_0_0_1_n_n = DotDims.plain 8192 66 128 := rfl
theorem dot6_eq : dot_S8192x6_S6x128_S8192x128_1_0_0_1_n_n = DotDims.plain 8192 6 128 := rfl

/-- THE STORED BLOCK at (0, a, b, q), from the entity bits and the three bin grids, whenever the bins at (a, b) are
    below their ranges' row counts: the three looked-up rows and the entity row, summed left to right. -/
theorem pay1_apply (v52 : IVec S64x128 1) (v63 v75 v86 : IVec S64x128 32) (W : Vec Ideal S139x128 .f32)
    (a : Fin 64) (b : Fin 128) (q : Fin 128)
    (h63 : (v63 (ix2 a b)).toNat < 66) (h75 : (v75 (ix2 a b)).toNat < 66) (h86 : (v86 (ix2 a b)).toNat < 6) :
    k0_pay1 (F := Ideal) v52 v63 v75 v86 W (k0_pay17 W) (k0_pay18 W) (k0_pay19 W) (ix4 (0 : Fin 1) a b q)
      = rowAt W (v63 (ix2 a b)).toNat q + rowAt W (66 + (v75 (ix2 a b)).toNat) q
        + (((v52 (ix2 a b)).toNat : ℝ) : EReal) * rowAt W 132 q + rowAt W (133 + (v86 (ix2 a b)).toNat) q := by
  unfold k0_pay1
  dsimp only
  refine (shapeCast_apply _ _ (ix4 (0 : Fin 1) a b q) (ix3 a b q) ?_).trans ?_
  · rw [Shape.rowMajor_val_three, Shape.rowMajor_val_four]
    show (a.val * 128 + b.val) * 128 + q.val = ((0 * 64 + a.val) * 128 + b.val) * 128 + q.val
    omega
  · rw [addf_apply, addf_apply, addf_apply, mulf_apply, dot66_eq, dot6_eq,
      onehotRows_apply (K := 66) (by norm_num) v63 (k0_pay17 W) _ _ _ _ _ _ a b q h63,
      onehotRows_apply (K := 66) (by norm_num) v75 (k0_pay18 W) _ _ _ _ _ _ a b q h75,
      onehotRows_apply (K := 6) (by norm_num) v86 _ _ _ _ _ _ _ a b q h86,
      lastAxis_apply, featRow_apply, pay17_apply, pay18_apply, pay19_apply, rows133_apply]
    show _ + _ + FloatOps.sitofp (F := Ideal) .f32 ((v52 (ix2 a b)).setWidth 32) * _ + _ = _
    rw [show FloatOps.sitofp (F := Ideal) .f32 ((v52 (ix2 a b)).setWidth 32) = ((((v52 (ix2 a b)).setWidth 32).toInt : ℝ) : EReal) from rfl,
      bit_toInt]

end Cert.KernelIdeal.Hand

end
-- ==== Proof.KernelValue.lean ====
/-
  From blocks to the array. Grid point t = (bi, bj) of the 16 × 8 grid computes the block of the result at rows
  64·bi … 64·bi + 63 and columns 128·bj … 128·bj + 127 (all 128 features): it loads, from each whole sequence array, the
  strip of 64 words at 64·bi for its rows and the strip of 128 words at 128·bj for its columns, and stores one block.
  So what point t writes back is the specification's function read through the point's block; the 128 blocks tile the
  result; hence the array after the run is the specification's function of the six arguments.
-/
import proofs.«422989_j50010599195179_3_alg».proof.Proof.Gen.KernelIdeal.Value
import proofs.«422989_j50010599195179_3_alg».proof.Proof.KernelPayload
import Idealize.ShloMosaic.Lib.Pipeline.Value

set_option maxRecDepth 16384

noncomputable section

namespace Cert.KernelIdeal.Hand

open Cert.KernelIdeal Cert.KernelIdeal.Gen Cert.PairEmbed Cert.PairEmbed.Layout
open Idealize.ShloMosaic Idealize.ShloMosaic.TcCoe Idealize.ShloMosaic.Tactic Idealize.ShloMosaic.ValueIdx Idealize.SL.Sem
open Idealize.ShloMosaic.Pipeline (Dat)

theorem hz2 : (![0, 0] : Fin 2 → Nat) = fun _ => 0 := by
  funext a; match a with | ⟨0, _⟩ => rfl | ⟨1, _⟩ => rfl
theorem hz4 : (![0, 0, 0, 0] : Fin 4 → Nat) = fun _ => 0 := by
  funext a; match a with | ⟨0, _⟩ => rfl | ⟨1, _⟩ => rfl | ⟨2, _⟩ => rfl | ⟨3, _⟩ => rfl

/-! ## The two strips a point loads of a sequence array -/

/-- The 64 words for the block's rows: the array from position 64·bi on. -/
def rowStrip (i : grid0.Coords) (x : Vec Ideal S1x1024 .i32) : Vec Ideal S1x64 .i32 :=
  View.ld x (Rect.unit (s := S1x1024) (k0_off1 i) S1x64.size (k0_off1_inb i))

/-- The 128 words for the block's columns: the array from position 128·bj on. -/
def colStrip (i : grid0.Coords) (x : Vec Ideal S1x1024 .i32) : Vec Ideal S1x128 .i32 :=
  View.ld x (Rect.unit (s := S1x1024) (k0_off2 i) S1x128.size (k0_off2_inb i))

theorem row_lt (i : grid0.Coords) (a : Fin 64) : 64 * (i 0).val + a.val < 1024 := by
  have h : (i 0).val < 16 := (i 0).isLt
  have := a.isLt
  omega

theorem col_lt (i : grid0.Coords) (b : Fin 128) : 128 * (i 1).val + b.val < 1024 := by
  have h : (i 1).val < 8 := (i 1).isLt
  have := b.isLt
  omega

/-- Word a of the row strip is word 64·bi + a of the array. -/
theorem rowStrip_apply (i : grid0.Coords) (x : Vec Ideal S1x1024 .i32) (a : Fin 64) :
    rowStrip i x (ix2 (0 : Fin 1) a) = x (ix2 (0 : Fin 1) (⟨64 * (i 0).val + a.val, row_lt i a⟩ : Fin 1024)) := by
  unfold rowStrip
  show x ((Rect.unit (s := S1x1024) (k0_off1 i) S1x64.size (k0_off1_inb i)).idx (ix2 (0 : Fin 1) a)) = _
  congr 1
  funext d
  refine Fin.ext ?_
  match d with
  | ⟨0, _⟩ =>
    show k0_off1 i 0 + 1 * 0 = 0
    rw [k0_off1_eq]; rfl
  | ⟨1, _⟩ =>
    show k0_off1 i 1 + 1 * a.val = 64 * (i 0).val + a.val
    rw [k0_off1_eq]
    show 64 * (i 0).val + 1 * a.val = _
    omega

/-- Word b of the column strip is word 128·bj + b of the array. -/
theorem colStrip_apply (i : grid0.Coords) (x : Vec Ideal S1x1024 .i32) (b : Fin 128) :
    colStrip i x (ix2 (0 : Fin 1) b) = x (ix2 (0 : Fin 1) (⟨128 * (i 1).val + b.val, col_lt i b⟩ : Fin 1024)) := by
  unfold colStrip
  show x ((Rect.unit (s := S1x1024) (k0_off2 i) S1x128.size (k0_off2_inb i)).idx (ix2 (0 : Fin 1) b)) = _
  congr 1
  funext d
  refine Fin.ext ?_
  match d with
  | ⟨0, _⟩ =>
    show k0_off2 i 0 + 1 * 0 = 0
    rw [k0_off2_eq]; rfl
  | ⟨1, _⟩ =>
    show k0_off2 i 1 + 1 * b.val = 128 * (i 1).val + b.val
    rw [k0_off2_eq]
    show 128 * (i 1).val + 1 * b.val = _
    omega

/-! ## What the body leaves in the output's staging buffer -/

/-- The stored block as the payload of the strips and the table: the body's one store covers the block, each load reads
    its strip of the buffer's contents, and the table's buffer is read whole. -/
theorem out_piece (c : Dev nD) (i : grid0.Coords) (arg2 : Memref sig .tc .vmem S1x1024 .i32) (harg2 : arg2.IsWhole) (arg3 : Memref sig .tc .vmem S1x1024 .i32) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S139x128 .f32) (harg7 : arg7.IsWhole) (arg8 : Memref sig .tc .vmem S1x64x128x128 .f32) (harg8 : arg8.IsWhole)
    (x0 x1 x2 x3 x4 : Vec Ideal S1x1024 .i32) (x5 : Vec Ideal S139x128 .f32) :
    out0_A_6 (F := Ideal) c i arg2 harg2 arg3 harg3 arg4 harg4 arg5 harg5 arg6 harg6 arg7 harg7 arg8 harg8 x0 x1 x2 x3 x4 x5
      = k0_pay1 (F := Ideal) (k0_pay13 (k0_pay6 (rowStrip i x3)) (k0_pay7 (colStrip i x3)))
          (k0_pay14 (k0_pay2 (rowStrip i x0)) (k0_pay3 (colStrip i x0)) (k0_pay10 (rowStrip i x1)) (k0_pay11 (colStrip i x1)))
          (k0_pay15 (k0_pay2 (rowStrip i x0)) (k0_pay3 (colStrip i x0)) (k0_pay8 (rowStrip i x4)) (k0_pay9 (colStrip i x4))
            (k0_pay10 (rowStrip i x1)) (k0_pay11 (colStrip i x1)))
          (k0_pay16 (k0_pay4 (rowStrip i x2)) (k0_pay5 (colStrip i x2)) (k0_pay6 (rowStrip i x3)) (k0_pay7 (colStrip i x3)))
          x5 (k0_pay17 x5) (k0_pay18 x5) (k0_pay19 x5) := by
  unfold out0_A_6
  rw [View.read_writes_eq_canon _ _ _ (cover0_A_6 c i arg2 harg2 arg3 harg3 arg4 harg4 arg5 harg5 arg6 harg6 arg7 harg7 arg8 harg8 x0 x1 x2 x3 x4 x5)]
  unfold kernelRun0_A
  dsimp only
  sl_unfold_words
  rw [View.canon_unit_zero hz4]
  simp only [View.readAt_eq_ld, harg2.read_unread, harg3.read_unread, harg4.read_unread, harg5.read_unread, harg6.read_unread,
    harg7.read_unread, View.ld_unit_zero (S := S139x128) hz2]
  rfl

/-- THE STORED BLOCK AT AN INDEX: at (0, a, b, q) the block of point (bi, bj) holds the specification's value of the pair
    (64·bi + a, 128·bj + b) at feature q. -/
theorem block_apply (i : grid0.Coords) (x0 x1 x2 x3 x4 : Vec Ideal S1x1024 .i32) (x5 : Vec Ideal S139x128 .f32)
    (a : Fin 64) (b : Fin 128) (q : Fin 128) :
    k0_pay1 (F := Ideal) (k0_pay13 (k0_pay6 (rowStrip i x3)) (k0_pay7 (colStrip i x3)))
        (k0_pay14 (k0_pay2 (rowStrip i x0)) (k0_pay3 (colStrip i x0)) (k0_pay10 (rowStrip i x1)) (k0_pay11 (colStrip i x1)))
        (k0_pay15 (k0_pay2 (rowStrip i x0)) (k0_pay3 (colStrip i x0)) (k0_pay8 (rowStrip i x4)) (k0_pay9 (colStrip i x4))
          (k0_pay10 (rowStrip i x1)) (k0_pay11 (colStrip i x1)))
        (k0_pay16 (k0_pay4 (rowStrip i x2)) (k0_pay5 (colStrip i x2)) (k0_pay6 (rowStrip i x3)) (k0_pay7 (colStrip i x3)))
        x5 (k0_pay17 x5) (k0_pay18 x5) (k0_pay19 x5) (ix4 (0 : Fin 1) a b q)
      = pairEmbedAt x0 x1 x2 x3 x4 x5 ⟨64 * (i 0).val + a.val, row_lt i a⟩ ⟨128 * (i 1).val + b.val, col_lt i b⟩ q := by
  rw [pay1_apply _ _ _ _ x5 a b q (by rw [pay14_apply]; exact binSi_lt _ _ _ _) (by rw [pay15_apply]; exact binTi_lt _ _ _ _ _ _)
      (by rw [pay16_apply]; exact binSym_lt _ _ _ _),
    pay13_apply, pay14_apply, pay15_apply, pay16_apply]
  simp only [rowStrip_apply, colStrip_apply]
  rfl

/-! ## Where the windows' blocks sit -/

variable (m : (ℓ : Loc nD τ sig) → Buf (Elt Ideal) ℓ) (ρ : Dev nD → PrngReg)

/-- The printed index maps, decided over the 128 grid points: every input window's one block is the whole array, and the
    output's block index at point (bi, bj) is (0, bi, bj, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 4) = 0 ∧ win0_6.index t (1 : Fin 4) = (grid0.coords t 0).val
    ∧ win0_6.index t (2 : Fin 4) = (grid0.coords t 1).val ∧ win0_6.index t (3 : Fin 4) = 0 :=
  (by decide +kernel : ∀ t : Fin grid0.N, _)

/-- A sequence window's block at any point is the whole array as the region finds it. -/
theorem iblk0_eq (c : Dev nD) (t : Fin cfg0.N) : (iblk m c 0 t : Vec Ideal S1x1024 .i32) = V m c main_arg0 := by
  obtain ⟨e0, e1, -⟩ := idx_facts t
  funext y
  show V m c main_arg0 (((cfg0.win 0).blk t).view.emb y) = V m c main_arg0 y
  congr 1
  funext a
  refine Fin.ext ?_
  match a with
  | ⟨0, _⟩ => show win0_0.index t (0 : Fin 2) * 1 + 1 * (y 0).val = (y 0).val; omega
  | ⟨1, _⟩ => show win0_0.index t (1 : Fin 2) * 1024 + 1 * (y 1).val = (y 1).val; omega

theorem iblk1_eq (c : Dev nD) (t : Fin cfg0.N) : (iblk m c 1 t : Vec Ideal S1x1024 .i32) = V m c main_arg1 := by
  obtain ⟨-, -, e0, e1, -⟩ := idx_facts t
  funext y
  show V m c main_arg1 (((cfg0.win 1).blk t).view.emb y) = V m c main_arg1 y
  congr 1
  funext a
  refine Fin.ext ?_
  match a with
  | ⟨0, _⟩ => show win0_1.index t (0 : Fin 2) * 1 + 1 * (y 0).val = (y 0).val; omega
  | ⟨1, _⟩ => show win0_1.index t (1 : Fin 2) * 1024 + 1 * (y 1).val = (y 1).val; omega

theorem iblk2_eq (c : Dev nD) (t : Fin cfg0.N) : (iblk m c 2 t : Vec Ideal S1x1024 .i32) = V m c main_arg2 := by
  obtain ⟨-, -, -, -, e0, e1, -⟩ := idx_facts t
  funext y
  show V m c main_arg2 (((cfg0.win 2).blk t).view.emb y) = V m c main_arg2 y
  congr 1
  funext a
  refine Fin.ext ?_
  match a with
  | ⟨0, _⟩ => show win0_2.index t (0 : Fin 2) * 1 + 1 * (y 0).val = (y 0).val; omega
  | ⟨1, _⟩ => show win0_2.index t (1 : Fin 2) * 1024 + 1 * (y 1).val = (y 1).val; omega

theorem iblk3_eq (c : Dev nD) (t : Fin cfg0.N) : (iblk m c 3 t : Vec Ideal S1x1024 .i32) = V m c main_arg3 := by
  obtain ⟨-, -, -, -, -, -, e0, e1, -⟩ := idx_facts t
  funext y
  show V m c main_arg3 (((cfg0.win 3).blk t).view.emb y) = V m c main_arg3 y
  congr 1
  funext a
  refine Fin.ext ?_
  match a with
  | ⟨0, _⟩ => show win0_3.index t (0 : Fin 2) * 1 + 1 * (y 0).val = (y 0).val; omega
  | ⟨1, _⟩ => show win0_3.index t (1 : Fin 2) * 1024 + 1 * (y 1).val = (y 1).val; omega

theorem iblk4_eq (c : Dev nD) (t : Fin cfg0.N) : (iblk m c 4 t : Vec Ideal S1x1024 .i32) = V m c main_arg4 := by
  obtain ⟨-, -, -, -, -, -, -, -, e0, e1, -⟩ := idx_facts t
  funext y
  show V m c main_arg4 (((cfg0.win 4).blk t).view.emb y) = V m c main_arg4 y
  congr 1
  funext a
  refine Fin.ext ?_
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- The table window's block at any point is the whole table. -/
theorem iblk5_eq (c : Dev nD) (t : Fin cfg0.N) : (iblk m c 5 t : Vec Ideal S139x128 .f32) = V m c main_arg5 := by
  obtain ⟨-, -, -, -, -, -, -, -, -, -, e0, e1, -⟩ := idx_facts t
  funext y
  show V m c main_arg5 (((cfg0.win 5).blk t).view.emb y) = V m c main_arg5 y
  congr 1
  funext a
  refine Fin.ext ?_
  match a with
  | ⟨0, _⟩ => show win0_5.index t (0 : Fin 2) * 139 + 1 * (y 0).val = (y 0).val; omega
  | ⟨1, _⟩ => show win0_5.index t (1 : Fin 2) * 128 + 1 * (y 1).val = (y 1).val; omega

/-! ## What a point writes back -/

/-- At every index y of the block, the body's result at point t is the specification's function at the array index
    under y: rows 64·bi + a, columns 128·bj + b. -/
theorem out_at (c : Dev nD) (t : Fin cfg0.N) (y : S1x64x128x128.Idx) :
    out0_A_6 (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t)
        (iblk m c 0 t) (iblk m c 1 t) (iblk m c 2 t) (iblk m c 3 t) (iblk m c 4 t) (iblk m c 5 t) y
      = pairEmbed (V m c main_arg0) (V m c main_arg1) (V m c main_arg2) (V m c main_arg3) (V m c main_arg4) (V m c main_arg5)
          (((cfg0.win 6).blk t).view.emb y) := by
  obtain ⟨a, b, q, rfl⟩ : ∃ (a : Fin 64) (b : Fin 128) (q : Fin 128), y = ix4 (0 : Fin 1) a b q :=
    ⟨y 1, y 2, y 3, funext fun d => match d with
      | ⟨0, _⟩ => Fin.ext (by show (y 0).val = 0; have h : (y 0).val < 1 := (y 0).isLt; omega)
      | ⟨1, _⟩ => rfl
      | ⟨2, _⟩ => rfl
      | ⟨3, _⟩ => rfl⟩
  rw [iblk0_eq, iblk1_eq, iblk2_eq, iblk3_eq, iblk4_eq, iblk5_eq, out_piece, block_apply]
  obtain ⟨-, -, -, -, -, -, -, -, -, -, -, -, f0, f1, f2, f3⟩ := idx_facts t
  unfold pairEmbed
  have e1 : (((cfg0.win 6).blk t).view.emb (ix4 (0 : Fin 1) a b q) 1 : Fin 1024)
      = ⟨64 * (grid0.coords t 0).val + a.val, row_lt (grid0.coords t) a⟩ :=
    Fin.ext (by show win0_6.index t (1 : Fin 4) * 64 + 1 * a.val = 64 * (grid0.coords t 0).val + a.val; rw [f1]; omega)
  have e2 : (((cfg0.win 6).blk t).view.emb (ix4 (0 : Fin 1) a b q) 2 : Fin 1024)
      = ⟨128 * (grid0.coords t 1).val + b.val, col_lt (grid0.coords t) b⟩ :=
    Fin.ext (by show win0_6.index t (2 : Fin 4) * 128 + 1 * b.val = 128 * (grid0.coords t 1).val + b.val; rw [f2]; omega)
  have e3 : (((cfg0.win 6).blk t).view.emb (ix4 (0 : Fin 1) a b q) 3 : Fin 128) = q :=
    Fin.ext (by show win0_6.index t (3 : Fin 4) * 128 + 1 * q.val = q.val; rw [f3]; omega)
  rw [e1, e2, e3]
  rfl

/-- WHAT POINT t WRITES BACK is block t of the specification's function of the argument arrays as the region finds them. -/
theorem flushed6_eq (c : Dev nD) (t : Fin cfg0.N) :
    (dats m 0 c).flushed 6 t = ((cfg0.win 6).blk t).view.read (Elt Ideal)
      (pairEmbed (V m c main_arg0) (V m c main_arg1) (V m c main_arg2) (V m c main_arg3) (V m c main_arg4) (V m c main_arg5)) := by
  rw [Cert.KernelIdeal.Value.flushed6_A]
  funext y
  exact out_at m c t y

/-! ## The blocks tile the result -/

/-- Every block index (0, p, r, 0) with p < 16 and r < 8 is some point's (decided over the grid). -/
theorem idx_onto : ∀ (p : Fin 16) (r : Fin 8), ∃ t : Fin cfg0.N, win0_6.index t = ![0, p.val, r.val, 0] :=
  (by decide +kernel : ∀ (p : Fin 16) (r : Fin 8), ∃ t : Fin grid0.N, win0_6.index t = ![0, p.val, r.val, 0])

/-- An index of the result is in point t's block iff each coordinate is in the block's range on its axis. -/
theorem mem_blk6 (t : Fin cfg0.N) (i : S1x1024x1024x128.Idx) :
    i ∈ ((cfg0.win 6).blk t).view.set ↔ ∀ a : Fin 4, win0_6.index t a * S1x64x128x128.size a ≤ (i a).val
      ∧ (i a).val < win0_6.index t a * S1x64x128x128.size a + S1x64x128x128.size a := by
  show i ∈ ((View.whole main_v0).slice (win0_6.rect t)).set ↔ _
  rw [View.set_slice_whole, Rect.mem_set_unit]
  exact Iff.rfl

/-- Every index of the result is in the block of the point (row / 64, column / 128). -/
theorem cover6 (i : S1x1024x1024x128.Idx) :
    ∃ t : Fin cfg0.N, (cfg0.win 6).flush t = true ∧ i ∈ ((cfg0.win 6).blk t).view.set := by
  have hi0 : (i 0).val < 1 := (i 0).isLt
  have hi1 : (i 1).val < 1024 := (i 1).isLt
  have hi2 : (i 2).val < 1024 := (i 2).isLt
  have hi3 : (i 3).val < 128 := (i 3).isLt
  obtain ⟨t, ht⟩ := idx_onto ⟨(i 1).val / 64, by omega⟩ ⟨(i 2).val / 128, by omega⟩
  have q0 : win0_6.index t (0 : Fin 4) = 0 := congrFun ht 0
  have q1 : win0_6.index t (1 : Fin 4) = (i 1).val / 64 := congrFun ht 1
  have q2 : win0_6.index t (2 : Fin 4) = (i 2).val / 128 := congrFun ht 2
  have q3 : win0_6.index t (3 : Fin 4) = 0 := congrFun ht 3
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 64 ≤ (i 1).val ∧ (i 1).val < win0_6.index t (1 : Fin 4) * 64 + 64; omega
  | ⟨2, _⟩ => show win0_6.index t (2 : Fin 4) * 128 ≤ (i 2).val ∧ (i 2).val < win0_6.index t (2 : Fin 4) * 128 + 128; omega
  | ⟨3, _⟩ => show win0_6.index t (3 : Fin 4) * 128 ≤ (i 3).val ∧ (i 3).val < win0_6.index t (3 : Fin 4) * 128 + 128; omega

/-- THE RESULT ARRAY after the run: the specification's function of the six argument arrays. -/
theorem final6 (c : Dev nD) :
    (dats m 0 c).arrAt 6 cfg0.N
      = pairEmbed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (dats m 0 c).arrAt_eq_of_cover 6 _ (fun t _ => flushed6_eq m c t) cover6

/-! ## The run, read -/

/-- Every weakly fair execution of the idealized kernel terminates with the result array at the specification's function
    of the arguments, the arguments unchanged. -/
theorem run : θ_run defs (onTc (τ := τ) (main (F := Ideal))) ⟨m, fun _ => 0, ρ⟩ fun r => ∀ c : Dev nD,
      r.2.mem ((c : Thread nD τ).loc main_v0)
        = pairEmbed (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2⟩) (Cert.KernelIdeal.Value.run_blocks m ρ)

end Cert.KernelIdeal.Hand

end
-- ==== Proof.RefValue.lean ====
/-
  The reference computes the specification's function. Its program broadcasts each sequence array along rows and along
  columns to a [1, 1024, 1024] grid of pairs, forms the three bin grids by the same compares, clips, shifts and selects,
  wraps each bin as a row index (a negative index counts from the end), gathers whole rows of the three table slices at
  the wrapped bins, and adds the entity bit times the entity row, summing left to right.

  Read at (0, i, j, q): a row broadcast reads the array at i, a column broadcast at j, so each bin grid at (i, j) is the
  specification's bin of the words at i and j. A bin is a small non-negative word, so the wrap leaves it alone and the
  gather's clamp into the slice's rows leaves it alone; the gather then reads the slice at row bin, feature q, which is
  the table at the slice's first row plus bin. The bit converted unsigned is the bit as a real number.
-/
import proofs.«422989_j50010599195179_3_alg».proof.Proof.Gen.ReferenceIdeal.Read
import proofs.«422989_j50010599195179_3_alg».proof.Proof.PairEmbedSpec

noncomputable section

namespace Cert.ReferenceIdeal.Hand

open Cert.ReferenceIdeal Cert.ReferenceIdeal.Gen Cert.ReferenceIdeal.Read Cert.PairEmbed
open Idealize.ShloMosaic Idealize.ShloMosaic.ValueIdx

variable (i j : Fin 1024) (q : Fin 128)

/-! ## The broadcasts' index maps at a pair -/

theorem row_0_2 : idx_main_v0 (idx_main_v2 (ix3 (0 : Fin 1) i j)) = ix2 (0 : Fin 1) i := by
  funext a; refine Fin.ext ?_; match a with | ⟨0, _⟩ => rfl | ⟨1, _⟩ => rfl
theorem col_1_3 : idx_main_v1 (idx_main_v3 (ix3 (0 : Fin 1) i j)) = ix2 (0 : Fin 1) j := by
  funext a; refine Fin.ext ?_; match a with | ⟨0, _⟩ => rfl | ⟨1, _⟩ => rfl
theorem row_5_7 : idx_main_v5 (idx_main_v7 (ix3 (0 : Fin 1) i j)) = ix2 (0 : Fin 1) i := by
  funext a; refine Fin.ext ?_; match a with | ⟨0, _⟩ => rfl | ⟨1, _⟩ => rfl
theorem col_6_8 : idx_main_v6 (idx_main_v8 (ix3 (0 : Fin 1) i j)) = ix2 (0 : Fin 1) j := by
  funext a; refine Fin.ext ?_; match a with | ⟨0, _⟩ => rfl | ⟨1, _⟩ => rfl
theorem row_10_12 : idx_main_v10 (idx_main_v12 (ix3 (0 : Fin 1) i j)) = ix2 (0 : Fin 1) i := by
  funext a; refine Fin.ext ?_; match a with | ⟨0, _⟩ => rfl | ⟨1, _⟩ => rfl
theorem col_11_13 : idx_main_v11 (idx_main_v13 (ix3 (0 : Fin 1) i j)) = ix2 (0 : Fin 1) j := by
  funext a; refine Fin.ext ?_; match a with | ⟨0, _⟩ => rfl | ⟨1, _⟩ => rfl
theorem row_15_17 : idx_main_v15 (idx_main_v17 (ix3 (0 : Fin 1) i j)) = ix2 (0 : Fin 1) i := by
  funext a; refine Fin.ext ?_; match a with | ⟨0, _⟩ => rfl | ⟨1, _⟩ => rfl
theorem col_16_18 : idx_main_v16 (idx_main_v18 (ix3 (0 : Fin 1) i j)) = ix2 (0 : Fin 1) j := by
  funext a; refine Fin.ext ?_; match a with | ⟨0, _⟩ => rfl | ⟨1, _⟩ => rfl
theorem row_25_27 : idx_main_v25 (idx_main_v27 (ix3 (0 : Fin 1) i j)) = ix2 (0 : Fin 1) i := by
  funext a; refine Fin.ext ?_; match a with | ⟨0, _⟩ => rfl | ⟨1, _⟩ => rfl
theorem col_26_28 : idx_main_v26 (idx_main_v28 (ix3 (0 : Fin 1) i j)) = ix2 (0 : Fin 1) j := by
  funext a; refine Fin.ext ?_; match a with | ⟨0, _⟩ => rfl | ⟨1, _⟩ => rfl
theorem row_34_36 : idx_main_v34 (idx_main_v36 (ix3 (0 : Fin 1) i j)) = ix2 (0 : Fin 1) i := by
  funext a; refine Fin.ext ?_; match a with | ⟨0, _⟩ => rfl | ⟨1, _⟩ => rfl
theorem col_35_37 : idx_main_v35 (idx_main_v37 (ix3 (0 : Fin 1) i j)) = ix2 (0 : Fin 1) j := by
  funext a; refine Fin.ext ?_; match a with | ⟨0, _⟩ => rfl | ⟨1, _⟩ => rfl

/-- A grid given a trailing unit axis reads, at (0, i, j, ·), the grid at (0, i, j). -/
theorem pair_53 (z : Fin 1) : idx_main_v53 (ix4 (0 : Fin 1) i j z) = ix3 (0 : Fin 1) i j := by
  funext a; refine Fin.ext ?_; match a with | ⟨0, _⟩ => rfl | ⟨1, _⟩ => rfl | ⟨2, _⟩ => rfl
theorem pair_60 (z : Fin 1) : idx_main_v60 (ix4 (0 : Fin 1) i j z) = ix3 (0 : Fin 1) i j := by
  funext a; refine Fin.ext ?_; match a with | ⟨0, _⟩ => rfl | ⟨1, _⟩ => rfl | ⟨2, _⟩ => rfl
theorem pair_75 (z : Fin 1) : idx_main_v75 (ix4 (0 : Fin 1) i j z) = ix3 (0 : Fin 1) i j := by
  funext a; refine Fin.ext ?_; match a with | ⟨0, _⟩ => rfl | ⟨1, _⟩ => rfl | ⟨2, _⟩ => rfl
theorem pair_63_66 : idx_main_v63 (idx_main_v66 (ix4 (0 : Fin 1) i j q)) = ix3 (0 : Fin 1) i j := by
  funext a; refine Fin.ext ?_; match a with | ⟨0, _⟩ => rfl | ⟨1, _⟩ => rfl | ⟨2, _⟩ => rfl

/-! ## The three bin grids and the entity bit at a pair -/

section Bins
variable (x0 x1 x2 x3 x4 : (⟨S1x1024, .i32⟩ : BufTy).Contents (Elt Ideal))

/-- The sequence-offset grid at (i, j) is the specification's bin of the words at i and j. -/
theorem v23_apply :
    val_main_v23 (F := Ideal) x0 x1 (ix3 (0 : Fin 1) i j)
      = binSi (x1 (ix2 (0 : Fin 1) i)) (x1 (ix2 (0 : Fin 1) j)) (x0 (ix2 (0 : Fin 1) i)) (x0 (ix2 (0 : Fin 1) j)) := by
  simp only [val_main_v23_apply, val_main_v4_apply, val_main_v2_apply, val_main_v0_apply, val_main_v3_apply, val_main_v1_apply,
    val_main_v22_apply, val_main_v20_apply, val_main_call0_v4_apply, val_main_call0_v3_apply, val_main_c_0_apply,
    val_main_call0_v2_apply, val_main_call0_v1_apply, val_main_call0_v0_apply, val_main_c_apply, val_main_v19_apply,
    val_main_v17_apply, val_main_v15_apply, val_main_v18_apply, val_main_v16_apply, val_main_v21_apply, val_main_c_1_apply,
    val_main_call1_v1_apply, val_main_call1_v0_apply, val_main_c_2_apply, row_0_2, col_1_3, row_15_17, col_16_18]
  rfl

/-- The token-offset grid at (i, j). -/
theorem v33_apply :
    val_main_v33 (F := Ideal) x0 x1 x4 (ix3 (0 : Fin 1) i j)
      = binTi (x1 (ix2 (0 : Fin 1) i)) (x1 (ix2 (0 : Fin 1) j)) (x0 (ix2 (0 : Fin 1) i)) (x0 (ix2 (0 : Fin 1) j))
          (x4 (ix2 (0 : Fin 1) i)) (x4 (ix2 (0 : Fin 1) j)) := by
  simp only [val_main_v33_apply, val_main_v24_apply, val_main_v4_apply, val_main_v2_apply, val_main_v0_apply, val_main_v3_apply,
    val_main_v1_apply, val_main_v9_apply, val_main_v7_apply, val_main_v5_apply, val_main_v8_apply, val_main_v6_apply,
    val_main_v32_apply, val_main_v30_apply, val_main_call2_v4_apply, val_main_call2_v3_apply, val_main_c_4_apply,
    val_main_call2_v2_apply, val_main_call2_v1_apply, val_main_call2_v0_apply, val_main_c_3_apply, val_main_v29_apply,
    val_main_v27_apply, val_main_v25_apply, val_main_v28_apply, val_main_v26_apply, val_main_v31_apply, val_main_c_5_apply,
    val_main_call3_v1_apply, val_main_call3_v0_apply, val_main_c_6_apply, row_0_2, col_1_3, row_5_7, col_6_8, row_25_27, col_26_28]
  rfl

/-- The entity bit at (i, j). -/
theorem v14_apply :
    val_main_v14 (F := Ideal) x3 (ix3 (0 : Fin 1) i j) = IntOp.cmpi .eq (x3 (ix2 (0 : Fin 1) i)) (x3 (ix2 (0 : Fin 1) j)) := by
  simp only [val_main_v14_apply, val_main_v12_apply, val_main_v10_apply, val_main_v13_apply, val_main_v11_apply, row_10_12, col_11_13]

/-- The symmetry-offset grid at (i, j). -/
theorem v42_apply :
    val_main_v42 (F := Ideal) x2 x3 (ix3 (0 : Fin 1) i j)
      = binSym (x3 (ix2 (0 : Fin 1) i)) (x3 (ix2 (0 : Fin 1) j)) (x2 (ix2 (0 : Fin 1) i)) (x2 (ix2 (0 : Fin 1) j)) := by
  simp only [val_main_v42_apply, v14_apply, val_main_v41_apply, val_main_v39_apply, val_main_call4_v4_apply,
    val_main_call4_v3_apply, val_main_c_8_apply, val_main_call4_v2_apply, val_main_call4_v1_apply, val_main_call4_v0_apply,
    val_main_c_7_apply, val_main_v38_apply, val_main_v36_apply, val_main_v34_apply, val_main_v37_apply, val_main_v35_apply,
    val_main_v40_apply, val_main_c_9_apply, val_main_call5_v1_apply, val_main_call5_v0_apply, val_main_c_10_apply,
    row_34_36, col_35_37]
  rfl

end Bins

/-! ## The three row gathers -/

section Gathers
variable (x0 x1 x2 x3 x4 : (⟨S1x1024, .i32⟩ : BufTy).Contents (Elt Ideal)) (x5 : (⟨S139x128, .f32⟩ : BufTy).Contents (Elt Ideal))

/-- The first gather's start word at (0, i, j): the sequence-offset bin, the wrap of a negative index leaving it alone. -/
theorem start53 :
    val_main_v53 (F := Ideal) x0 x1 (ix4 (0 : Fin 1) i j (0 : Fin 1))
      = binSi (x1 (ix2 (0 : Fin 1) i)) (x1 (ix2 (0 : Fin 1) j)) (x0 (ix2 (0 : Fin 1) i)) (x0 (ix2 (0 : Fin 1) j)) := by
  have hd := binSi_lt (x1 (ix2 (0 : Fin 1) i)) (x1 (ix2 (0 : Fin 1) j)) (x0 (ix2 (0 : Fin 1) i)) (x0 (ix2 (0 : Fin 1) j))
  rw [val_main_v53_apply, pair_53, val_main_v52_apply, val_main_v49_apply, val_main_v51_apply, val_main_v48_apply,
    val_main_c_11_apply, val_main_v50_apply, val_main_c_12_apply, v23_apply]
  exact wrap_of_small _ _ (by omega)

/-- The second gather's start word at (0, i, j): the token-offset bin. -/
theorem start60 :
    val_main_v60 (F := Ideal) x0 x1 x4 (ix4 (0 : Fin 1) i j (0 : Fin 1))
      = binTi (x1 (ix2 (0 : Fin 1) i)) (x1 (ix2 (0 : Fin 1) j)) (x0 (ix2 (0 : Fin 1) i)) (x0 (ix2 (0 : Fin 1) j))
          (x4 (ix2 (0 : Fin 1) i)) (x4 (ix2 (0 : Fin 1) j)) := by
  have hd := binTi_lt (x1 (ix2 (0 : Fin 1) i)) (x1 (ix2 (0 : Fin 1) j)) (x0 (ix2 (0 : Fin 1) i)) (x0 (ix2 (0 : Fin 1) j))
    (x4 (ix2 (0 : Fin 1) i)) (x4 (ix2 (0 : Fin 1) j))
  rw [val_main_v60_apply, pair_60, val_main_v59_apply, val_main_v56_apply, val_main_v58_apply, val_main_v55_apply,
    val_main_c_13_apply, val_main_v57_apply, val_main_c_14_apply, v33_apply]
  exact wrap_of_small _ _ (by omega)

/-- The third gather's start word at (0, i, j): the symmetry-offset bin. -/
theorem start75 :
    val_main_v75 (F := Ideal) x2 x3 (ix4 (0 : Fin 1) i j (0 : Fin 1))
      = binSym (x3 (ix2 (0 : Fin 1) i)) (x3 (ix2 (0 : Fin 1) j)) (x2 (ix2 (0 : Fin 1) i)) (x2 (ix2 (0 : Fin 1) j)) := by
  have hd := binSym_lt (x3 (ix2 (0 : Fin 1) i)) (x3 (ix2 (0 : Fin 1) j)) (x2 (ix2 (0 : Fin 1) i)) (x2 (ix2 (0 : Fin 1) j))
  rw [val_main_v75_apply, pair_75, val_main_v74_apply, val_main_v71_apply, val_main_v73_apply, val_main_v70_apply,
    val_main_c_15_apply, val_main_v72_apply, val_main_c_16_apply, v42_apply]
  exact wrap_of_small _ _ (by omega)

/-- The first gather at (0, i, j, q): the table's row at the sequence-offset bin. -/
theorem v54_apply :
    val_main_v54 (F := Ideal) x0 x1 x5 (ix4 (0 : Fin 1) i j q)
      = rowAt x5 (binSi (x1 (ix2 (0 : Fin 1) i)) (x1 (ix2 (0 : Fin 1) j)) (x0 (ix2 (0 : Fin 1) i)) (x0 (ix2 (0 : Fin 1) j))).toNat q := by
  have hd := binSi_lt (x1 (ix2 (0 : Fin 1) i)) (x1 (ix2 (0 : Fin 1) j)) (x0 (ix2 (0 : Fin 1) i)) (x0 (ix2 (0 : Fin 1) j))
  unfold val_main_v54
  refine (rowGather4_apply_of (N := 66) (D := 128) (R := 1024) (C := 1024) (by norm_num)
    gather_S66x128_S1x1024x1024x1_S1x1024x1024x128_3_0_n_n_0_3_1128 rfl rfl rfl rfl rfl rfl rfl
    (val_main_v43 (F := Ideal) x5) (val_main_v53 (F := Ideal) x0 x1) i j q).trans ?_
  rw [val_main_v43_apply]
  refine rowAt_eq x5 _ _ q ?_ rfl
  show min (val_main_v53 (F := Ideal) x0 x1 (ix4 (0 : Fin 1) i j (0 : Fin 1))).toInt.toNat (66 - 1) = _
  rw [start53]
  exact clamp_of_small _ 66 (by norm_num) hd

/-- The second gather at (0, i, j, q): the table's row at 66 plus the token-offset bin. -/
theorem v61_apply :
    val_main_v61 (F := Ideal) x0 x1 x4 x5 (ix4 (0 : Fin 1) i j q)
      = rowAt x5 (66 + (binTi (x1 (ix2 (0 : Fin 1) i)) (x1 (ix2 (0 : Fin 1) j)) (x0 (ix2 (0 : Fin 1) i)) (x0 (ix2 (0 : Fin 1) j))
          (x4 (ix2 (0 : Fin 1) i)) (x4 (ix2 (0 : Fin 1) j))).toNat) q := by
  have hd := binTi_lt (x1 (ix2 (0 : Fin 1) i)) (x1 (ix2 (0 : Fin 1) j)) (x0 (ix2 (0 : Fin 1) i)) (x0 (ix2 (0 : Fin 1) j))
    (x4 (ix2 (0 : Fin 1) i)) (x4 (ix2 (0 : Fin 1) j))
  unfold val_main_v61
  refine (rowGather4_apply_of (N := 66) (D := 128) (R := 1024) (C := 1024) (by norm_num)
    gather_S66x128_S1x1024x1024x1_S1x1024x1024x128_3_0_n_n_0_3_1128 rfl rfl rfl rfl rfl rfl rfl
    (val_main_v44 (F := Ideal) x5) (val_main_v60 (F := Ideal) x0 x1 x4) i j q).trans ?_
  rw [val_main_v44_apply]
  refine rowAt_eq x5 _ _ q ?_ rfl
  show 66 + min (val_main_v60 (F := Ideal) x0 x1 x4 (ix4 (0 : Fin 1) i j (0 : Fin 1))).toInt.toNat (66 - 1) = _
  rw [start60, clamp_of_small _ 66 (by norm_num) hd]

/-- The third gather at (0, i, j, q): the table's row at 133 plus the symmetry-offset bin. -/
theorem v76_apply :
    val_main_v76 (F := Ideal) x2 x3 x5 (ix4 (0 : Fin 1) i j q)
      = rowAt x5 (133 + (binSym (x3 (ix2 (0 : Fin 1) i)) (x3 (ix2 (0 : Fin 1) j)) (x2 (ix2 (0 : Fin 1) i)) (x2 (ix2 (0 : Fin 1) j))).toNat) q := by
  have hd := binSym_lt (x3 (ix2 (0 : Fin 1) i)) (x3 (ix2 (0 : Fin 1) j)) (x2 (ix2 (0 : Fin 1) i)) (x2 (ix2 (0 : Fin 1) j))
  unfold val_main_v76
  refine (rowGather4_apply_of (N := 6) (D := 128) (R := 1024) (C := 1024) (by norm_num)
    gather_S6x128_S1x1024x1024x1_S1x1024x1024x128_3_0_n_n_0_3_1128 rfl rfl rfl rfl rfl rfl rfl
    (val_main_v47 (F := Ideal) x5) (val_main_v75 (F := Ideal) x2 x3) i j q).trans ?_
  rw [val_main_v47_apply]
  refine rowAt_eq x5 _ _ q ?_ rfl
  show 133 + min (val_main_v75 (F := Ideal) x2 x3 (ix4 (0 : Fin 1) i j (0 : Fin 1))).toInt.toNat (6 - 1) = _
  rw [start75, clamp_of_small _ 6 (by norm_num) hd]

/-! ## The entity term and the sum -/

/-- The entity term at (0, i, j, q): the entity bit of (i, j), as a real number, times the table's row 132. -/
theorem v68_apply :
    val_main_v68 (F := Ideal) x3 x5 (ix4 (0 : Fin 1) i j q)
      = (((IntOp.cmpi .eq (x3 (ix2 (0 : Fin 1) i)) (x3 (ix2 (0 : Fin 1) j))).toNat : ℝ) : EReal) * rowAt x5 132 q := by
  rw [val_main_v68_apply, val_main_v66_apply, val_main_v64_apply, val_main_v63_apply, pair_63_66, v14_apply,
    val_main_v67_apply, val_main_v65_apply, val_main_v46_apply, val_main_v45_apply]
  congr 1
  exact rowAt_eq x5 _ 132 q rfl (by show q.val % 128 = q.val; exact Nat.mod_eq_of_lt q.isLt)

/-- THE REFERENCE'S RESULT at (0, i, j, q) is the specification's value of the pair (i, j) at q. -/
theorem v77_apply :
    val_main_v77 (F := Ideal) x0 x1 x2 x3 x4 x5 (ix4 (0 : Fin 1) i j q) = pairEmbedAt x0 x1 x2 x3 x4 x5 i j q := by
  rw [val_main_v77_apply, val_main_v69_apply, val_main_v62_apply, v54_apply, v61_apply, v68_apply, v76_apply]
  rfl

end Gathers

/-- THE REFERENCE'S RESULT ARRAY is the specification's function of the six argument arrays. -/
theorem result_eq (x0 x1 x2 x3 x4 : (⟨S1x1024, .i32⟩ : BufTy).Contents (Elt Ideal)) (x5 : (⟨S139x128, .f32⟩ : BufTy).Contents (Elt Ideal)) :
    val_main_v77 (F := Ideal) x0 x1 x2 x3 x4 x5 = pairEmbed x0 x1 x2 x3 x4 x5 := by
  funext y
  obtain ⟨i, j, q, rfl⟩ : ∃ (i j : Fin 1024) (q : Fin 128), y = ix4 (0 : Fin 1) i j q :=
    ⟨y 1, y 2, y 3, funext fun d => match d with
      | ⟨0, _⟩ => Fin.ext (by show (y 0).val = 0; have h : (y 0).val < 1 := (y 0).isLt; omega)
      | ⟨1, _⟩ => rfl
      | ⟨2, _⟩ => rfl
      | ⟨3, _⟩ => rfl⟩
  exact v77_apply i j q x0 x1 x2 x3 x4 x5

end Cert.ReferenceIdeal.Hand

end
-- ==== Proof.lean ====
/-
  The certificate of the relative-position pair embedding: a Pallas kernel on a 16 × 8 grid against its jnp reference,
  equal over the extended reals.

  Both programs compute, for residues i, j and feature q,

      W[dSi(i, j), q] + W[66 + dTi(i, j), q] + [ent i = ent j] · W[132, q] + W[133 + dSym(i, j), q],

  where dSi, dTi and dSym are BINS of the pair: a difference of two 32-bit words (sequence index, token index, symmetry
  copy) clipped to [−32, 32] or [−2, 2] and shifted to start at 0, or one extra bin when the pair is on different chains
  (or residues, or entities). The reference gathers the rows of the weight table W at the bins. The kernel cannot gather
  rows, so it multiplies a one-hot matrix of each bin by the corresponding slice of W on the matrix unit.

  What makes the two equal. The bins are formed by the same word operations in the same order on both sides, so they
  are the same words whatever the inputs (wrapped differences included). A clipped and shifted difference is a small
  non-negative word below the row count of its slice, so on the reference side the wrap of negative indices and the
  gather's clamp are the identity, and on the kernel side exactly one entry of each one-hot row is 1. Over the extended
  reals 0 annihilates and 1 is neutral for EVERY value, infinite ones included, so the one-hot product is the looked-up
  row with nothing assumed of W: the precondition (W finite) is not used. The entity bit is converted signed from a
  widened bit on one side and unsigned on the other: the same real number. Both sides add the four terms left to right.

  The frames of the two kernel programs and the reference's run are generated; the kernel's value is read off its
  generated frame run block by block (each grid point's block is the specification's function read through the block,
  and the 128 blocks tile the result), the reference's off its generated run one operation at a time.
-/
import proofs.«422989_j50010599195179_3_alg».proof.Defs
import proofs.«422989_j50010599195179_3_alg».proof.Proof.Gen.Kernel
import proofs.«422989_j50010599195179_3_alg».proof.Proof.Gen.Kernel.Skeleton
import proofs.«422989_j50010599195179_3_alg».proof.Proof.Gen.Kernel.Launch
import proofs.«422989_j50010599195179_3_alg».proof.Proof.Gen.Kernel.Points
import proofs.«422989_j50010599195179_3_alg».proof.Proof.Gen.Kernel.Frame
import proofs.«422989_j50010599195179_3_alg».proof.Proof.Gen.KernelIdeal
import proofs.«422989_j50010599195179_3_alg».proof.Proof.Gen.KernelIdeal.Skeleton
import proofs.«422989_j50010599195179_3_alg».proof.Proof.Gen.KernelIdeal.Launch
import proofs.«422989_j50010599195179_3_alg».proof.Proof.Gen.KernelIdeal.Points
import proofs.«422989_j50010599195179_3_alg».proof.Proof.Gen.KernelIdeal.Frame
import proofs.«422989_j50010599195179_3_alg».proof.Proof.Gen.ReferenceIdeal
import proofs.«422989_j50010599195179_3_alg».proof.Proof.Gen.Pre_finite_inputs
import proofs.«422989_j50010599195179_3_alg».proof.Proof.Gen.KernelIdeal.Value
import proofs.«422989_j50010599195179_3_alg».proof.Proof.Gen.ReferenceIdeal.Run
import proofs.«422989_j50010599195179_3_alg».proof.Proof.Gen.ReferenceIdeal.Read
import proofs.«422989_j50010599195179_3_alg».proof.Proof.KernelValue
import proofs.«422989_j50010599195179_3_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories agreeing on the six arguments, the idealized kernel ends with its result array at the pair embedding
    of its arguments, and the reference with its result at the pair embedding of its own: the same array. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, Cert.ReferenceIdeal.Hand.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
